-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x256 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S50000x128 .f32) (main_arg2 : IVec S1600000 32) (main_arg3 : IVec S1600000 32) (main_arg4 : FVec F S128x128 .f32) (main_arg5 : FVec F S128 .f32) (main_arg6 : FVec F S128x128 .f32) (main_arg7 : FVec F S128 .f32) (main_arg8 : FVec F S128x256 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S2000 : Shape := ⟨1, ![2000]⟩
abbrev S2000x1 : Shape := ⟨2, ![2000, 1]⟩
abbrev S100000x1 : Shape := ⟨2, ![100000, 1]⟩

abbrev nBuf : Space → Nat
  | .hbm => 86
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x256, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S1x128, .f32⟩
  | .hbm, ⟨18, _⟩ => ⟨S100000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S_, .f32⟩
  | .hbm, ⟨33, _⟩ => ⟨S1600000x1, .f32⟩
  | .hbm, ⟨34, _⟩ => ⟨S_, .f32⟩
  | .hbm, ⟨35, _⟩ => ⟨S50000x1, .f32⟩
  | .hbm, ⟨36, _⟩ => ⟨S1600000x1, .i32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S1600000x1, .f32⟩
  | .hbm, ⟨69, _⟩ => ⟨S_, .f32⟩
  | .hbm, ⟨70, _⟩ => ⟨S100000x1, .f32⟩
  | .hbm, ⟨71, _⟩ => ⟨S1600000x1, .i32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S128x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S128x256_S128x128_0_0 : S128x256.Slices ![0, 0] S128x128
  slices_S128x256_S128x128_0_128 : S128x256.Slices ![0, 128] S128x128
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v30_1) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S50000x256 : Shape := ⟨2, ![50000, 256]⟩
abbrev S256x128 : Shape := ⟨2, ![256, 128]⟩
abbrev S100000x1 : Shape := ⟨2, ![100000, 1]⟩
abbrev S100000x256 : Shape := ⟨2, ![100000, 256]⟩
abbrev S100000 : Shape := ⟨1, ![100000]⟩
abbrev S50000 : Shape := ⟨1, ![50000]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S50000x128, .f32⟩
  | 2 => ⟨S1600000, .i32⟩
  | 3 => ⟨S1600000, .i32⟩
  | 4 => ⟨S128x128, .f32⟩
  | 5 => ⟨S128, .f32⟩
  | 6 => ⟨S128x128, .f32⟩
  | 7 => ⟨S128, .f32⟩
  | 8 => ⟨S128x256, .f32⟩
  | 9 => ⟨S128, .f32⟩
  | 10 => ⟨S128x256, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S100000x128, .f32⟩
  | 18 => ⟨S1x128, .f32⟩
  | 19 => ⟨S100000x128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S50000x128, .f32⟩
  | 32 => ⟨S1600000x1, .i32⟩
  | 33 => ⟨S50000x128, .f32⟩
  | 34 => ⟨S_, .f32⟩
  | 35 => ⟨S1600000x1, .f32⟩
  | 36 => ⟨S_, .f32⟩
  | 37 => ⟨S50000x1, .f32⟩
  | 38 => ⟨S1600000x1, .i32⟩
  | 39 => ⟨S50000x1, .f32⟩
  | 40 => ⟨S_, .f32⟩
  | 41 => ⟨S50000x1, .f32⟩
  | 42 => ⟨S50000x1, .f32⟩
  | 43 => ⟨S50000x128, .f32⟩
  | 44 => ⟨S50000x128, .f32⟩
  | 45 => ⟨S50000x256, .f32⟩
  | 46 => ⟨S256x128, .f32⟩
  | 47 => ⟨S50000x128, .f32⟩
  | 48 => ⟨S1x128, .f32⟩
  | 49 => ⟨S50000x128, .f32⟩
  | 50 => ⟨S50000x128, .f32⟩
  | 51 => ⟨S128x128, .f32⟩
  | 52 => ⟨S50000x128, .f32⟩
  | 53 => ⟨S1x128, .f32⟩
  | 54 => ⟨S50000x128, .f32⟩
  | 55 => ⟨S50000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S_, .f32⟩
  | 70 => ⟨S1600000x1, .f32⟩
  | 71 => ⟨S_, .f32⟩
  | 72 => ⟨S100000x1, .f32⟩
  | 73 => ⟨S1600000x1, .i32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x256, .f32⟩
  | 81 => ⟨S256x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x128, .f32⟩
  | 93 => ⟨S100000x128, .f32⟩
  | 94 => ⟨S100000x128, .f32⟩
  | 95 => ⟨S_, .f32⟩
  | 96 => ⟨S100000, .f32⟩
  | 97 => ⟨S100000x1, .f32⟩
  | 98 => ⟨S_, .f32⟩
  | 99 => ⟨S100000x1, .f32⟩
  | 100 => ⟨S100000x1, .f32⟩
  | 101 => ⟨S100000x128, .f32⟩
  | 102 => ⟨S100000x128, .f32⟩
  | 103 => ⟨S_, .f32⟩
  | 104 => ⟨S100000x1, .f32⟩
  | 105 => ⟨S100000x1, .f32⟩
  | 106 => ⟨S100000x1, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .f32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x128, .f32⟩
  | 125 => ⟨S50000x128, .f32⟩
  | 126 => ⟨S50000x128, .f32⟩
  | 127 => ⟨S_, .f32⟩
  | _ => ⟨S100000x128, .f32⟩

abbrev hbmTy0_1 (i : Nat) : BufTy := match i % 128 with
  | 0 => ⟨S50000, .f32⟩
  | 1 => ⟨S50000x1, .f32⟩
  | 2 => ⟨S_, .f32⟩
  | 3 => ⟨S50000x1, .f32⟩
  | 4 => ⟨S50000x1, .f32⟩
  | 5 => ⟨S50000x128, .f32⟩
  | 6 => ⟨S50000x128, .f32⟩
  | 7 => ⟨S_, .f32⟩
  | 8 => ⟨S50000x1, .f32⟩
  | 9 => ⟨S50000x1, .f32⟩
  | 10 => ⟨S50000x1, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call0_cst : Ref sig .tc := ⟨.hbm, 115, rfl⟩
abbrev main_call0_v0 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_17 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_19 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_call1_cst : Ref sig .tc := ⟨.hbm, 147, rfl⟩
abbrev main_call1_v0 : Ref sig .tc := ⟨.hbm, 148, rfl⟩
abbrev main_v107 : Ref sig .tc := ⟨.hbm, 149, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  reducesTo_S100000x128_S100000_d1 : S100000x128.ReducesTo [1] S100000
  h_S_ : 0 < S_.numel
  bcast_S100000_S100000x1_0 : S100000.BroadcastsInDim S100000x1 (![0] : Fin 1 → Fin S100000x1.rank)
  reducesTo_S50000x128_S50000_d1 : S50000x128.ReducesTo [1] S50000
  bcast_S50000_S50000x1_0 : S50000.BroadcastsInDim S50000x1 (![0] : Fin 1 → Fin S50000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The arithmetic of the three dense stages, one output ROW at a time, on the extended reals.

  Every stage of this program is row-wise: row r of a stage's result depends on row r of its row-blocked
  operands and on the whole weight matrices and bias rows. So each stage is stated once as a function of rows:

    linRow   x W b        : j ↦ (∑ κ, x κ · W κ j) + b j                 (a linear layer, W indexed (input κ, output j))
    mergeRow y g Wy Wg b  : j ↦ ((∑ κ, y κ · Wy κ j) + (∑ κ, g κ · Wg κ j)) + b j
                                                                          (a linear layer on the concatenation [y, g],
                                                                           its weight split into the two halves)
    lnRelu   v γ β        : j ↦ max (((v j − μ) · rsqrt (σ² + ε)) · γ j + β j) 0,
                            μ = (∑ v) / 128,  σ² = (∑ (v − μ)²) / 128     (layer normalisation, then the positive part)

  The literals 128, ε and 0 stay as the binary words both programs print; they are never evaluated.
  The one law that joins the two programs is here too: a sum over 256 = 128 + 128 contraction positions of a
  concatenated row against a weight row is the sum over the first half plus the sum over the second half
  (addition of extended reals is commutative and associative, so no finiteness is needed).
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

/-- A row of 128 features. -/
abbrev Row := Fin 128 → EReal
/-- A weight matrix, indexed (input feature κ, output feature j). -/
abbrev Mat := Fin 128 → Fin 128 → EReal

/-- A linear layer on one row. -/
def linRow (x : Row) (w : Mat) (b : Row) : Row := fun j => (∑ κ : Fin 128, x κ * w κ j) + b j

/-- A linear layer on the concatenation of two rows, its weight given as the two halves. -/
def mergeRow (y g : Row) (wy wg : Mat) (b : Row) : Row :=
  fun j => ((∑ κ : Fin 128, y κ * wy κ j) + (∑ κ : Fin 128, g κ * wg κ j)) + b j

/-- The mean of a row: its sum over the printed 128.0. -/
def mean (v : Row) : EReal := Ideal.div (∑ κ : Fin 128, v κ) (Ideal.ofBits .f32 0x43000000#32)

/-- The (biased) variance of a row. -/
def var (v : Row) : EReal :=
  Ideal.div (∑ κ : Fin 128, (v κ - mean v) * (v κ - mean v)) (Ideal.ofBits .f32 0x43000000#32)

/-- Layer normalisation with scale γ and shift β, then the positive part. -/
def lnRelu (v γ β : Row) : Row :=
  fun j => max (((v j - mean v) * Ideal.rsqrt (var v + Ideal.ofBits .f32 0x3727C5AC#32)) * γ j + β j)
    (Ideal.ofBits .f32 0x00000000#32)

/-- Row `p` of a matrix with 128 columns. -/
def rowOf {n : ℕ} (X : (⟨2, ![n, 128]⟩ : Shape).Idx → EReal) (p : Fin n) : Row := fun κ => X (ix2 p κ)

/-- A [128,128] array as a weight matrix, indexed (row of the array, column of the array). -/
def mat (W : (⟨2, ![128, 128]⟩ : Shape).Idx → EReal) : Mat := fun κ j => W (ix2 κ j)

/-- The one row of a [1,128] array. -/
def row1 (b : (⟨2, ![1, 128]⟩ : Shape).Idx → EReal) : Row := fun j => b (ix2 (0 : Fin 1) j)

/-- A [128,128] weight stored (output j, input κ), read as a weight matrix (κ, j): the transposed read. -/
def matT (W : (⟨2, ![128, 128]⟩ : Shape).Idx → EReal) : Mat := fun κ j => W (ix2 j κ)

/-- The first 128 input columns of a [128,256] weight stored (output j, input k), read as a weight matrix (κ, j). -/
def matTL (W : (⟨2, ![128, 256]⟩ : Shape).Idx → EReal) : Mat := fun κ j => W (ix2 j (Fin.castAdd 128 κ))

/-- The last 128 input columns of a [128,256] weight stored (output j, input k), read as a weight matrix (κ, j). -/
def matTR (W : (⟨2, ![128, 256]⟩ : Shape).Idx → EReal) : Mat := fun κ j => W (ix2 j (Fin.natAdd 128 κ))

/-- A [128] vector as a row. -/
def rowV (b : (⟨1, ![128]⟩ : Shape).Idx → EReal) : Row := fun j => b (ix1 j)

/-- A linear layer applied to every row of an [n,128] array. -/
def GLin {n : ℕ} (X : (⟨2, ![n, 128]⟩ : Shape).Idx → EReal) (w : Mat) (b : Row) : (⟨2, ![n, 128]⟩ : Shape).Idx → EReal :=
  fun i => linRow (rowOf X (i 0)) w b (i 1)

/-- A linear layer on the row-wise concatenation [Y, G] of two [n,128] arrays, applied to every row. -/
def GMerge {n : ℕ} (Y G : (⟨2, ![n, 128]⟩ : Shape).Idx → EReal) (wy wg : Mat) (b : Row) :
    (⟨2, ![n, 128]⟩ : Shape).Idx → EReal :=
  fun i => mergeRow (rowOf Y (i 0)) (rowOf G (i 0)) wy wg b (i 1)

/-- Layer normalisation and the positive part, applied to every row of an [n,128] array. -/
def GLn {n : ℕ} (Z : (⟨2, ![n, 128]⟩ : Shape).Idx → EReal) (γ β : Row) : (⟨2, ![n, 128]⟩ : Shape).Idx → EReal :=
  fun i => lnRelu (rowOf Z (i 0)) γ β (i 1)

/-- Row `p` of `GLin X w b` is `linRow` of row `p` of `X`. -/
theorem rowOf_GLin {n : ℕ} (X : (⟨2, ![n, 128]⟩ : Shape).Idx → EReal) (w : Mat) (b : Row) (p : Fin n) :
    rowOf (GLin X w b) p = linRow (rowOf X p) w b := rfl

/-- Row `p` of `GMerge Y G wy wg b` is `mergeRow` of rows `p` of `Y` and `G`. -/
theorem rowOf_GMerge {n : ℕ} (Y G : (⟨2, ![n, 128]⟩ : Shape).Idx → EReal) (wy wg : Mat) (b : Row) (p : Fin n) :
    rowOf (GMerge Y G wy wg b) p = mergeRow (rowOf Y p) (rowOf G p) wy wg b := rfl

/-- A sum over 128 + 128 positions is the sum over the first 128 plus the sum over the last 128. -/
theorem sum_halves (h : Fin 256 → EReal) :
    ∑ k : Fin 256, h k = (∑ κ : Fin 128, h (Fin.castAdd 128 κ)) + ∑ κ : Fin 128, h (Fin.natAdd 128 κ) :=
  Fin.sum_univ_add (M := EReal) (a := 128) (b := 128) h

end Cert.Spec

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Region0.lean ====
import proofs.«123129_j8658654068867_1_alg».proof.Proof.Gen.KernelIdeal.Frame
import proofs.«123129_j8658654068867_1_alg».proof.Proof.Spec
import proofs.«123129_j8658654068867_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.ShloMosaic.ValueIdx
open Cert.Spec

theorem plain : Cert.PlainDot.Plain dot_S2000x128_S128x128_S2000x128_1_0_0_1_n_n := ⟨rfl, rfl, rfl, rfl, rfl, rfl⟩
theorem contr_rank : dot_S2000x128_S128x128_S2000x128_1_0_0_1_n_n.contr.rank = 1 := rfl
theorem contr_size : dot_S2000x128_S128x128_S2000x128_1_0_0_1_n_n.contr.size ⟨0, by decide⟩ = 128 := rfl

/-- The stored block at an entry: row p of the block's X rows through the linear layer, column q. -/
theorem pay_xp_apply (v0 : Vec Ideal S2000x128 .f32) (v2 : Vec Ideal S128x128 .f32) (v6 : Vec Ideal S1x128 .f32)
    (p : Fin 2000) (q : Fin 128) :
    k0_pay1 (F := Ideal) v0 v2 v6 (ix2 p q) = linRow (fun κ => v0 (ix2 p κ)) (mat v2) (row1 v6) q := by
  unfold k0_pay1
  simp only [shapeCast_self]
  rw [addf_apply, broadcastTo_1b_ab_apply, Cert.PlainDot.matmul_zero_apply plain contr_rank contr_size]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the weight and the bias at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 50 := t.isLt.trans_eq N_0

/-- Row p of block t is row 2000·t + p of the array. -/
def rowAt (t : Fin cfg0.N) (p : Fin 2000) : Fin 100000 := ⟨t.val * 2000 + p.val, by have := t_lt t; have := p.isLt; omega⟩

/-- Entry (p, q) of the output's block t sits at (2000·t + p, q) of the output array. -/
theorem emb_out (t : Fin cfg0.N) (p : Fin 2000) (q : Fin 128) :
    ((cfg0.win 3).blk t).view.emb (ix2 p q) = ix2 (rowAt t p) q := by
  obtain ⟨e00, e01, e10, e11, e20, e21, e30, e31⟩ := idx_facts t
  funext a; apply Fin.ext
  match a with
  | ⟨0, _⟩ => show win0_3.index t (0 : Fin 2) * 2000 + 1 * p.val = t.val * 2000 + p.val; omega
  | ⟨1, _⟩ => show win0_3.index t (1 : Fin 2) * 128 + 1 * q.val = q.val; omega

/-- Entry (p, κ) of X's block t sits at (2000·t + p, κ) of X. -/
theorem emb_x (t : Fin cfg0.N) (p : Fin 2000) (κ : Fin 128) :
    ((cfg0.win 0).blk t).view.emb (ix2 p κ) = ix2 (rowAt t p) κ := by
  obtain ⟨e00, e01, e10, e11, e20, e21, e30, e31⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * κ.val = κ.val; omega

/-- The weight's block is the whole weight at every point. -/
theorem emb_w (t : Fin cfg0.N) (κ j : Fin 128) : ((cfg0.win 1).blk t).view.emb (ix2 κ j) = ix2 κ j := by
  obtain ⟨e00, e01, e10, e11, e20, e21, e30, e31⟩ := idx_facts t
  funext a; apply Fin.ext
  match a with
  | ⟨0, _⟩ => show win0_1.index t (0 : Fin 2) * 128 + 1 * κ.val = κ.val; omega
  | ⟨1, _⟩ => show win0_1.index t (1 : Fin 2) * 128 + 1 * j.val = j.val; omega

/-- The bias row's block is the whole row at every point. -/
theorem emb_b (t : Fin cfg0.N) (j : Fin 128) : ((cfg0.win 2).blk t).view.emb (ix2 (0 : Fin 1) j) = ix2 (0 : Fin 1) j := by
  obtain ⟨e00, e01, e10, e11, e20, e21, e30, e31⟩ := idx_facts t
  funext a; apply Fin.ext
  match a with
  | ⟨0, _⟩ => show win0_2.index t (0 : Fin 2) * 1 + 1 * (0 : Fin 1).val = (0 : Fin 1).val; simp [e20]
  | ⟨1, _⟩ => show win0_2.index t (1 : Fin 2) * 128 + 1 * j.val = j.val; omega

/-- WHAT POINT t WRITES BACK is block t of the linear layer applied to every row of X. -/
theorem flushed_eq (c : Dev nD) (t : Fin cfg0.N) :
    (dat0 (F := Ideal) V c).flushed 3 t
      = ((cfg0.win 3).blk t).view.read (Elt Ideal) (GLin (V c main_arg0) (mat (V c main_v0)) (row1 (V c main_v1))) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k0_pay1 (iblk0 V c 0 t) (iblk0 V c 1 t) (iblk0 V c 2 t) (ix2 p q)
      = GLin (V c main_arg0) (mat (V c main_v0)) (row1 (V c main_v1)) (((cfg0.win 3).blk t).view.emb (ix2 p q))
  refine (pay_xp_apply (iblk0 V c 0 t) (iblk0 V c 1 t) (iblk0 V c 2 t) p q).trans ?_
  rw [emb_out t p q]
  show linRow (fun κ => iblk0 V c 0 t (ix2 p κ)) (mat (iblk0 V c 1 t)) (row1 (iblk0 V c 2 t)) q
      = linRow (rowOf (V c main_arg0) (rowAt t p)) (mat (V c main_v0)) (row1 (V c main_v1)) q
  have hx : (fun κ => iblk0 V c 0 t (ix2 p κ)) = rowOf (V c main_arg0) (rowAt t p) := funext fun κ => by
    show V c main_arg0 (((cfg0.win 0).blk t).view.emb (ix2 p κ)) = V c main_arg0 (ix2 (rowAt t p) κ)
    rw [emb_x t p κ]
  have hw : mat (iblk0 V c 1 t) = mat (V c main_v0) := funext fun κ => funext fun j => by
    show V c main_v0 (((cfg0.win 1).blk t).view.emb (ix2 κ j)) = V c main_v0 (ix2 κ j)
    rw [emb_w t κ j]
  have hb : row1 (iblk0 V c 2 t) = row1 (V c main_v1) := funext fun j => by
    show V c main_v1 (((cfg0.win 2).blk t).view.emb (ix2 (0 : Fin 1) j)) = V c main_v1 (ix2 (0 : Fin 1) j)
    rw [emb_b t j]
  rw [hx, hw, hb]

/-- An index of the output array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v2).slice (win0_3.rect t)).set ↔ _
  rw [View.set_slice_whole, Rect.mem_set_unit]
  exact Iff.rfl

/-- The 50 blocks of 2000 rows tile the 100000 rows: row r is in the block of point r / 2000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  have ht : t.val = (i 0).val / 2000 := rfl
  refine ⟨t, flush0_3 t, ?_⟩
  rw [mem_blk]
  obtain ⟨e00, e01, e10, e11, e20, e21, e30, e31⟩ := idx_facts t
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- Xp after the region: the vertex linear layer applied to every row of X. -/
theorem final_xp (c : Dev nD) :
    (dat0 (F := Ideal) V c).arrAt 3 cfg0.N = GLin (V c main_arg0) (mat (V c main_v0)) (row1 (V c main_v1)) :=
  (dat0 V c).arrAt_eq_of_cover 3 _ (fun t _ => flushed_eq V c t) cover

end Cert.KernelIdeal.Reg0

end
-- ==== Proof.Region1.lean ====
import proofs.«123129_j8658654068867_1_alg».proof.Proof.Gen.KernelIdeal.Frame
import proofs.«123129_j8658654068867_1_alg».proof.Proof.Spec
import proofs.«123129_j8658654068867_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.ShloMosaic.ValueIdx
open Cert.Spec

variable (V : (c : Dev nD) → (b : Ref sig .tc) → Buf (Elt Ideal) ((c : Thread nD τ).loc b))

/-- The dimension numbers of the three matrix products: rows from the left, columns from the right, one contracted axis of extent 128. -/
theorem plain : Cert.PlainDot.Plain dot_S2000x128_S128x128_S2000x128_1_0_0_1_n_n := ⟨rfl, rfl, rfl, rfl, rfl, rfl⟩
theorem contr_rank : dot_S2000x128_S128x128_S2000x128_1_0_0_1_n_n.contr.rank = 1 := rfl
theorem contr_size : dot_S2000x128_S128x128_S2000x128_1_0_0_1_n_n.contr.size ⟨0, by decide⟩ = 128 := rfl

/-- The Ym block at an entry: row p of the block depends on rows p of the two row-blocked operands only.
    The two products into zero accumulators, added, plus the bias, are the merged layer on [y, g];
    the third product plus its bias is the edge layer on that row. -/
theorem pay_ym_apply (v0 v2 : Vec Ideal S2000x128 .f32) (v5 v8 : Vec Ideal S128x128 .f32) (v14 : Vec Ideal S1x128 .f32)
    (v19 : Vec Ideal S128x128 .f32) (v23 : Vec Ideal S1x128 .f32) (p : Fin 2000) (q : Fin 128) :
    k1_pay2 (F := Ideal) v0 v2 v5 v8 v14 v19 v23 (ix2 p q)
      = linRow (mergeRow (fun κ => v0 (ix2 p κ)) (fun κ => v2 (ix2 p κ)) (mat v5) (mat v8) (row1 v14)) (mat v19) (row1 v23) q := by
  unfold k1_pay2
  simp only [shapeCast_self]
  rw [addf_apply, broadcastTo_1b_ab_apply, Cert.PlainDot.matmul_zero_apply plain contr_rank contr_size]
  unfold linRow
  refine congrArg₂ (· + ·) (Finset.sum_congr rfl fun κ _ => congrArg₂ (· * ·) ?_ rfl) rfl
  rw [truncf_apply, addf_apply, broadcastTo_1b_ab_apply, addf_apply,
    Cert.PlainDot.matmul_zero_apply plain contr_rank contr_size, Cert.PlainDot.matmul_zero_apply plain contr_rank contr_size]
  rfl

/-- A lane sum at row p: the sum over the 128 columns of that row, with no accumulator term. -/
theorem lanesum_apply (x : FVec Ideal S2000x128 .f32) (p : Fin 2000) :
    multiReduction (F := Ideal) .add [1] S2000 x 0x00000000#32 reduces_S2000x128_S2000 (.inl rfl) rfl (ix1 p)
      = ∑ κ : Fin 128, x (ix2 p κ) := by
  refine (Ideal.multiReduction_add_single x 0x00000000#32 reduces_S2000x128_S2000 _ _ (ix1 p)).trans ?_
  refine Finset.sum_congr rfl fun κ _ => congrArg x (funext fun a => Fin.ext ?_)
  match a with
  | ⟨0, _⟩ => rfl
  | ⟨1, _⟩ => rfl

/-- A vector of 2000 entries as a [2000,1] column: entry (p, 0) is entry p. -/
theorem col_apply {α : Type} (x : S2000.Idx → α) (p : Fin 2000) (u : Fin 1) :
    shapeCast S2000x1 x shapeCasts_S2000_S2000x1 (ix2 p u) = x (ix1 p) :=
  shapeCast_apply x _ _ _ (by
    rw [Shape.rowMajor_val_two, Shape.rowMajor_val_one]
    show p.val = p.val * 1 + u.val
    omega)

/-- A [2000,1] column spread over 128 columns: entry (p, q) is the column's entry (p, 0). -/
theorem bcol_apply {α : Type} (x : S2000x1.Idx → α) (p : Fin 2000) (q : Fin 128) :
    broadcastTo S2000x128 x broadcasts_S2000x1_S2000x128 (ix2 p q) = x (ix2 p (0 : Fin 1)) := by
  refine broadcastTo_apply x _ (ix2 p q) (ix2 p (0 : Fin 1)) fun ax => ?_
  match ax with
  | ⟨0, _⟩ => rfl
  | ⟨1, _⟩ => rfl

/-- The mean column at row p: the mean of row p of the Ym block. -/
theorem pay_mean_apply (v0 v2 : Vec Ideal S2000x128 .f32) (v5 v8 : Vec Ideal S128x128 .f32) (v14 : Vec Ideal S1x128 .f32)
    (v19 : Vec Ideal S128x128 .f32) (v23 : Vec Ideal S1x128 .f32) (p : Fin 2000) :
    k1_pay3 (F := Ideal) v0 v2 v5 v8 v14 v19 v23 (ix2 p (0 : Fin 1))
      = mean (fun κ => k1_pay2 (F := Ideal) v0 v2 v5 v8 v14 v19 v23 (ix2 p κ)) := by
  unfold k1_pay3
  rw [divf_apply, col_apply, lanesum_apply, broadcast_apply]
  rfl

/-- The lane sum of squared deviations at row p. -/
theorem pay_sq_apply (v0 v2 : Vec Ideal S2000x128 .f32) (v5 v8 : Vec Ideal S128x128 .f32) (v14 : Vec Ideal S1x128 .f32)
    (v19 : Vec Ideal S128x128 .f32) (v23 : Vec Ideal S1x128 .f32) (p : Fin 2000) :
    k1_pay4 (F := Ideal) v0 v2 v5 v8 v14 v19 v23 (ix1 p)
      = ∑ κ : Fin 128,
          (k1_pay2 (F := Ideal) v0 v2 v5 v8 v14 v19 v23 (ix2 p κ) - mean (fun κ => k1_pay2 (F := Ideal) v0 v2 v5 v8 v14 v19 v23 (ix2 p κ)))
          * (k1_pay2 (F := Ideal) v0 v2 v5 v8 v14 v19 v23 (ix2 p κ) - mean (fun κ => k1_pay2 (F := Ideal) v0 v2 v5 v8 v14 v19 v23 (ix2 p κ))) := by
  unfold k1_pay4
  rw [lanesum_apply]
  refine Finset.sum_congr rfl fun κ _ => ?_
  rw [mulf_apply, subf_apply, bcol_apply, pay_mean_apply]

/-- The Yo block at an entry, over any Ym block, mean column and squared-deviation sums: the normalised entry
    scaled by γ, shifted by β, then its positive part. -/
theorem pay_yo_apply (v26 : FVec Ideal S2000x128 .f32) (v31 : FVec Ideal S2000x1 .f32) (v35 : FVec Ideal S2000 .f32)
    (v46 v50 : Vec Ideal S1x128 .f32) (p : Fin 2000) (q : Fin 128) :
    k1_pay1 (F := Ideal) v26 v31 v35 v46 v50 (ix2 p q)
      = max (((v26 (ix2 p q) - v31 (ix2 p (0 : Fin 1)))
              * Ideal.rsqrt (Ideal.div (v35 (ix1 p)) (Ideal.ofBits .f32 0x43000000#32) + Ideal.ofBits .f32 0x3727C5AC#32))
              * v46 (ix2 (0 : Fin 1) q) + v50 (ix2 (0 : Fin 1) q))
          (Ideal.ofBits .f32 0x00000000#32) := by
  unfold k1_pay1
  simp only [shapeCast_self]
  rw [maximumf_apply, addf_apply, mulf_apply, mulf_apply, subf_apply, bcol_apply, bcol_apply, broadcastTo_1b_ab_apply,
    broadcastTo_1b_ab_apply, broadcast_apply, ← col_apply v35 p (0 : Fin 1)]
  rfl

/-- The Yo block at an entry, from the region's loaded blocks: the mean column and the squared-deviation sums
    are those of row p of the Ym block, so the entry is the normalised, scaled, shifted, positive part of that row. -/
theorem pay_yo_row_apply (v0 v2 : Vec Ideal S2000x128 .f32) (v5 v8 : Vec Ideal S128x128 .f32) (v14 : Vec Ideal S1x128 .f32)
    (v19 : Vec Ideal S128x128 .f32) (v23 v46 v50 : Vec Ideal S1x128 .f32) (p : Fin 2000) (q : Fin 128) :
    k1_pay1 (F := Ideal) (k1_pay2 v0 v2 v5 v8 v14 v19 v23) (k1_pay3 v0 v2 v5 v8 v14 v19 v23) (k1_pay4 v0 v2 v5 v8 v14 v19 v23)
        v46 v50 (ix2 p q)
      = lnRelu (linRow (mergeRow (fun κ => v0 (ix2 p κ)) (fun κ => v2 (ix2 p κ)) (mat v5) (mat v8) (row1 v14)) (mat v19) (row1 v23))
          (row1 v46) (row1 v50) q := by
  rw [pay_yo_apply, pay_mean_apply, pay_sq_apply]
  simp only [pay_ym_apply]
  rfl

theorem hz : (![0, 0] : Fin 2 → Nat) = fun _ => 0 := funext fun a => by fin_cases a <;> rfl

/-- The printed index maps over the grid: the four row-blocked windows sit at block (t, 0); every weight and
    every bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- Row p of Y's block at point t is row t·2000 + p of Y. -/
theorem rows_y (c : Dev nD) (t : Fin cfg1.N) (p : Fin 2000) (r : Fin 50000) (hr : r.val = t.val * 2000 + p.val) :
    (fun κ : Fin 128 => iblk1 V c 0 t (ix2 p κ)) = rowOf (V c main_arg1) r := by
  obtain ⟨e00, e01, -⟩ := idx_facts t
  funext κ
  show V c main_arg1 (((cfg1.win 0).blk t).view.emb (ix2 p κ)) = V c main_arg1 (ix2 r κ)
  refine congrArg (V c main_arg1) (funext fun a => Fin.ext ?_)
  match a with
  | ⟨0, _⟩ => show win1_0.index t (0 : Fin 2) * 2000 + 1 * p.val = r.val; omega
  | ⟨1, _⟩ => show win1_0.index t (1 : Fin 2) * 128 + 1 * κ.val = κ.val; omega

/-- Row p of the message block at point t is row t·2000 + p of the message array. -/
theorem rows_g (c : Dev nD) (t : Fin cfg1.N) (p : Fin 2000) (r : Fin 50000) (hr : r.val = t.val * 2000 + p.val) :
    (fun κ : Fin 128 => iblk1 V c 1 t (ix2 p κ)) = rowOf (V c main_v20) r := by
  obtain ⟨-, -, e10, e11, -⟩ := idx_facts t
  funext κ
  show V c main_v20 (((cfg1.win 1).blk t).view.emb (ix2 p κ)) = V c main_v20 (ix2 r κ)
  refine congrArg (V c main_v20) (funext fun a => Fin.ext ?_)
  match a with
  | ⟨0, _⟩ => show win1_1.index t (0 : Fin 2) * 2000 + 1 * p.val = r.val; omega
  | ⟨1, _⟩ => show win1_1.index t (1 : Fin 2) * 128 + 1 * κ.val = κ.val; omega

/-- The first half of the merge weight: its window's block at any point is the whole array. -/
theorem blk_wy (c : Dev nD) (t : Fin cfg1.N) : mat (iblk1 V c 2 t) = mat (V c main_v22) := by
  obtain ⟨-, -, -, -, e0, e1, -⟩ := idx_facts t
  funext κ j
  show V c main_v22 (((cfg1.win 2).blk t).view.emb (ix2 κ j)) = V c main_v22 (ix2 κ j)
  refine congrArg (V c main_v22) (funext fun a => Fin.ext ?_)
  match a with
  | ⟨0, _⟩ => show win1_2.index t (0 : Fin 2) * 128 + 1 * κ.val = κ.val; omega
  | ⟨1, _⟩ => show win1_2.index t (1 : Fin 2) * 128 + 1 * j.val = j.val; omega

/-- The second half of the merge weight, whole at every point. -/
theorem blk_wg (c : Dev nD) (t : Fin cfg1.N) : mat (iblk1 V c 3 t) = mat (V c main_v24) := by
  obtain ⟨-, -, -, -, -, -, e0, e1, -⟩ := idx_facts t
  funext κ j
  show V c main_v24 (((cfg1.win 3).blk t).view.emb (ix2 κ j)) = V c main_v24 (ix2 κ j)
  refine congrArg (V c main_v24) (funext fun a => Fin.ext ?_)
  match a with
  | ⟨0, _⟩ => show win1_3.index t (0 : Fin 2) * 128 + 1 * κ.val = κ.val; omega
  | ⟨1, _⟩ => show win1_3.index t (1 : Fin 2) * 128 + 1 * j.val = j.val; omega

/-- The merge bias row, whole at every point. -/
theorem blk_bm (c : Dev nD) (t : Fin cfg1.N) : row1 (iblk1 V c 4 t) = row1 (V c main_v26) := by
  obtain ⟨-, -, -, -, -, -, -, -, e0, e1, -⟩ := idx_facts t
  funext j
  show V c main_v26 (((cfg1.win 4).blk t).view.emb (ix2 (0 : Fin 1) j)) = V c main_v26 (ix2 (0 : Fin 1) j)
  refine congrArg (V c main_v26) (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega

/-- The edge weight, whole at every point. -/
theorem blk_we (c : Dev nD) (t : Fin cfg1.N) : mat (iblk1 V c 5 t) = mat (V c main_v25) := by
  obtain ⟨-, -, -, -, -, -, -, -, -, -, e0, e1, -⟩ := idx_facts t
  funext κ j
  show V c main_v25 (((cfg1.win 5).blk t).view.emb (ix2 κ j)) = V c main_v25 (ix2 κ j)
  refine congrArg (V c main_v25) (funext fun a => Fin.ext ?_)
  match a with
  | ⟨0, _⟩ => show win1_5.index t (0 : Fin 2) * 128 + 1 * κ.val = κ.val; omega
  | ⟨1, _⟩ => show win1_5.index t (1 : Fin 2) * 128 + 1 * j.val = j.val; omega

/-- The edge bias row, whole at every point. -/
theorem blk_be (c : Dev nD) (t : Fin cfg1.N) : row1 (iblk1 V c 6 t) = row1 (V c main_v27) := by
  obtain ⟨-, -, -, -, -, -, -, -, -, -, -, -, e0, e1, -⟩ := idx_facts t
  funext j
  show V c main_v27 (((cfg1.win 6).blk t).view.emb (ix2 (0 : Fin 1) j)) = V c main_v27 (ix2 (0 : Fin 1) j)
  refine congrArg (V c main_v27) (funext fun a => Fin.ext ?_)
  match a with
  | ⟨0, _⟩ => show win1_6.index t (0 : Fin 2) * 1 + 1 * 0 = 0; omega
  | ⟨1, _⟩ => show win1_6.index t (1 : Fin 2) * 128 + 1 * j.val = j.val; omega

/-- The scale row γ, whole at every point. -/
theorem blk_gamma (c : Dev nD) (t : Fin cfg1.N) : row1 (iblk1 V c 7 t) = row1 (V c main_v28) := by
  obtain ⟨-, -, -, -, -, -, -, -, -, -, -, -, -, -, e0, e1, -⟩ := idx_facts t
  funext j
  show V c main_v28 (((cfg1.win 7).blk t).view.emb (ix2 (0 : Fin 1) j)) = V c main_v28 (ix2 (0 : Fin 1) j)
  refine congrArg (V c main_v28) (funext fun a => Fin.ext ?_)
  match a with
  | ⟨0, _⟩ => show win1_7.index t (0 : Fin 2) * 1 + 1 * 0 = 0; omega
  | ⟨1, _⟩ => show win1_7.index t (1 : Fin 2) * 128 + 1 * j.val = j.val; omega

/-- The shift row β, whole at every point. -/
theorem blk_beta (c : Dev nD) (t : Fin cfg1.N) : row1 (iblk1 V c 8 t) = row1 (V c main_v29) := by
  obtain ⟨-, -, -, -, -, -, -, -, -, -, -, -, -, -, -, -, e0, e1, -⟩ := idx_facts t
  funext j
  show V c main_v29 (((cfg1.win 8).blk t).view.emb (ix2 (0 : Fin 1) j)) = V c main_v29 (ix2 (0 : Fin 1) j)
  refine congrArg (V c main_v29) (funext fun a => Fin.ext ?_)
  match a with
  | ⟨0, _⟩ => show win1_8.index t (0 : Fin 2) * 1 + 1 * 0 = 0; omega
  | ⟨1, _⟩ => show win1_8.index t (1 : Fin 2) * 128 + 1 * j.val = j.val; omega

/-- Ym as one function of the arrays the region finds: the merged layer on [Y, msg], then the edge layer, row by row. -/
abbrev GYm (c : Dev nD) : S50000x128.Idx → EReal :=
  GLin (GMerge (V c main_arg1) (V c main_v20) (mat (V c main_v22)) (mat (V c main_v24)) (row1 (V c main_v26)))
    (mat (V c main_v25)) (row1 (V c main_v27))

/-- Row r of Ym, from rows r of Y and of the message array. -/
theorem row_GYm (c : Dev nD) (r : Fin 50000) :
    rowOf (GYm V c) r
      = linRow (mergeRow (rowOf (V c main_arg1) r) (rowOf (V c main_v20) r) (mat (V c main_v22)) (mat (V c main_v24)) (row1 (V c main_v26)))
          (mat (V c main_v25)) (row1 (V c main_v27)) := rfl

/-- The row of the array under row p of point t's block. -/
theorem row_lt (t : Fin cfg1.N) (p : Fin 2000) : t.val * 2000 + p.val < 50000 := by
  have h1 : t.val < 25 := t.isLt
  have h2 := p.isLt
  omega

/-- WHAT POINT t WRITES BACK to Ym is block t of that function. -/
theorem flushed_ym (c : Dev nD) (t : Fin cfg1.N) :
    (dat1 (F := Ideal) V c).flushed 9 t = ((cfg1.win 9).blk t).view.read (Elt Ideal) (GYm V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  refine (pay_ym_apply (iblk1 V c 0 t) (iblk1 V c 1 t) (iblk1 V c 2 t) (iblk1 V c 3 t) (iblk1 V c 4 t) (iblk1 V c 5 t)
    (iblk1 V c 6 t) p q).trans ?_
  rw [rows_y V c t p ⟨t.val * 2000 + p.val, row_lt t p⟩ rfl, rows_g V c t p ⟨t.val * 2000 + p.val, row_lt t p⟩ rfl,
    blk_wy V c t, blk_wg V c t, blk_bm V c t, blk_we V c t, blk_be V c t, ← row_GYm]
  obtain ⟨-, -, -, -, -, -, -, -, -, -, -, -, -, -, -, -, -, -, e0, e1, -⟩ := idx_facts t
  show GYm V c (ix2 (⟨t.val * 2000 + p.val, row_lt t p⟩ : Fin 50000) q) = GYm V c (((cfg1.win 9).blk t).view.emb (ix2 p q))
  refine congrArg (GYm V c) (funext fun a => Fin.ext ?_)
  match a with
  | ⟨0, _⟩ => show t.val * 2000 + p.val = win1_9.index t (0 : Fin 2) * 2000 + 1 * p.val; omega
  | ⟨1, _⟩ => show q.val = win1_9.index t (1 : Fin 2) * 128 + 1 * q.val; omega

/-- WHAT POINT t WRITES BACK to Yo is block t of the layer normalisation and positive part of Ym, row by row. -/
theorem flushed_yo (c : Dev nD) (t : Fin cfg1.N) :
    (dat1 (F := Ideal) V c).flushed 10 t
      = ((cfg1.win 10).blk t).view.read (Elt Ideal) (GLn (GYm V c) (row1 (V c main_v28)) (row1 (V c main_v29))) := by
  show (cfg1.win 10).cut (grid1.coords t) ((dat1 V c).after 10 t) = _
  rw [after1_10]
  unfold out1_10
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  refine (pay_yo_row_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  rw [rows_y V c t p ⟨t.val * 2000 + p.val, row_lt t p⟩ rfl, rows_g V c t p ⟨t.val * 2000 + p.val, row_lt t p⟩ rfl,
    blk_wy V c t, blk_wg V c t, blk_bm V c t, blk_we V c t, blk_be V c t, blk_gamma V c t, blk_beta V c t, ← row_GYm]
  obtain ⟨-, -, -, -, -, -, -, -, -, -, -, -, -, -, -, -, -, -, -, -, e0, e1⟩ := idx_facts t
  show GLn (GYm V c) (row1 (V c main_v28)) (row1 (V c main_v29)) (ix2 (⟨t.val * 2000 + p.val, row_lt t p⟩ : Fin 50000) q)
    = GLn (GYm V c) (row1 (V c main_v28)) (row1 (V c main_v29)) (((cfg1.win 10).blk t).view.emb (ix2 p q))
  refine congrArg (GLn (GYm V c) (row1 (V c main_v28)) (row1 (V c main_v29))) (funext fun a => Fin.ext ?_)
  match a with
  | ⟨0, _⟩ => show t.val * 2000 + p.val = win1_10.index t (0 : Fin 2) * 2000 + 1 * p.val; omega
  | ⟨1, _⟩ => show q.val = win1_10.index t (1 : Fin 2) * 128 + 1 * q.val; omega

/-- An index of Ym is in point t's block iff each coordinate is in the block's range on its axis. -/
theorem mem_blk_ym (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v30_0).slice (win1_9.rect t)).set ↔ _
  rw [View.set_slice_whole, Rect.mem_set_unit]
  exact Iff.rfl

/-- An index of Yo is in point t's block iff each coordinate is in the block's range on its axis. -/
theorem mem_blk_yo (t : Fin cfg1.N) (i : S50000x128.Idx) :
    i ∈ ((cfg1.win 10).blk t).view.set ↔ ∀ a : Fin 2, win1_10.index t a * S2000x128.size a ≤ (i a).val
      ∧ (i a).val < win1_10.index t a * S2000x128.size a + S2000x128.size a := by
  show i ∈ ((View.whole main_v30_1).slice (win1_10.rect t)).set ↔ _
  rw [View.set_slice_whole, Rect.mem_set_unit]
  exact Iff.rfl

/-- The point whose blocks hold row r: r / 2000, one of the 25 points since r < 50000. -/
def pointOf (r : Fin 50000) : Fin cfg1.N := ⟨r.val / 2000, by show r.val / 2000 < 25; have := r.isLt; omega⟩

/-- The 25 blocks of 2000 rows tile the 50000 rows of Ym: row r is in the block of point r / 2000. -/
theorem cover_ym (i : S50000x128.Idx) :
    ∃ t : Fin cfg1.N, (cfg1.win 9).flush t = true ∧ i ∈ ((cfg1.win 9).blk t).view.set := by
  have hi1 : (i 1).val < 128 := (i 1).isLt
  have ht : (pointOf (i 0)).val = (i 0).val / 2000 := rfl
  refine ⟨pointOf (i 0), flush1_9 _, ?_⟩
  rw [mem_blk_ym]
  obtain ⟨-, -, -, -, -, -, -, -, -, -, -, -, -, -, -, -, -, -, e0, e1, -⟩ := idx_facts (pointOf (i 0))
  intro a
  match a with
  | ⟨0, _⟩ =>
    show win1_9.index (pointOf (i 0)) (0 : Fin 2) * 2000 ≤ (i 0).val
      ∧ (i 0).val < win1_9.index (pointOf (i 0)) (0 : Fin 2) * 2000 + 2000
    omega
  | ⟨1, _⟩ =>
    show win1_9.index (pointOf (i 0)) (1 : Fin 2) * 128 ≤ (i 1).val
      ∧ (i 1).val < win1_9.index (pointOf (i 0)) (1 : Fin 2) * 128 + 128
    omega

/-- The same tiling of the 50000 rows of Yo. -/
theorem cover_yo (i : S50000x128.Idx) :
    ∃ t : Fin cfg1.N, (cfg1.win 10).flush t = true ∧ i ∈ ((cfg1.win 10).blk t).view.set := by
  have hi1 : (i 1).val < 128 := (i 1).isLt
  have ht : (pointOf (i 0)).val = (i 0).val / 2000 := rfl
  refine ⟨pointOf (i 0), flush1_10 _, ?_⟩
  rw [mem_blk_yo]
  obtain ⟨-, -, -, -, -, -, -, -, -, -, -, -, -, -, -, -, -, -, -, -, e0, e1⟩ := idx_facts (pointOf (i 0))
  intro a
  match a with
  | ⟨0, _⟩ =>
    show win1_10.index (pointOf (i 0)) (0 : Fin 2) * 2000 ≤ (i 0).val
      ∧ (i 0).val < win1_10.index (pointOf (i 0)) (0 : Fin 2) * 2000 + 2000
    omega
  | ⟨1, _⟩ =>
    show win1_10.index (pointOf (i 0)) (1 : Fin 2) * 128 ≤ (i 1).val
      ∧ (i 1).val < win1_10.index (pointOf (i 0)) (1 : Fin 2) * 128 + 128
    omega

/-- Ym after the region: the merged linear layer on [Y, msg], then the edge linear layer, row by row. -/
theorem final_ym (c : Dev nD) :
    (dat1 (F := Ideal) V c).arrAt 9 cfg1.N
      = GLin (GMerge (V c main_arg1) (V c main_v20) (mat (V c main_v22)) (mat (V c main_v24)) (row1 (V c main_v26)))
          (mat (V c main_v25)) (row1 (V c main_v27)) :=
  (dat1 V c).arrAt_eq_of_cover 9 (GYm V c) (fun t _ => flushed_ym V c t) cover_ym

/-- Yo after the region: layer normalisation and the positive part of Ym, row by row. -/
theorem final_yo (c : Dev nD) :
    (dat1 (F := Ideal) V c).arrAt 10 cfg1.N
      = GLn (GLin (GMerge (V c main_arg1) (V c main_v20) (mat (V c main_v22)) (mat (V c main_v24)) (row1 (V c main_v26)))
          (mat (V c main_v25)) (row1 (V c main_v27))) (row1 (V c main_v28)) (row1 (V c main_v29)) :=
  (dat1 V c).arrAt_eq_of_cover 10 (GLn (GYm V c) (row1 (V c main_v28)) (row1 (V c main_v29))) (fun t _ => flushed_yo V c t) cover_yo

end Cert.KernelIdeal.Reg1

end
-- ==== Proof.Region2.lean ====
import proofs.«123129_j8658654068867_1_alg».proof.Proof.Gen.KernelIdeal.Frame
import proofs.«123129_j8658654068867_1_alg».proof.Proof.Spec
import proofs.«123129_j8658654068867_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.ShloMosaic.ValueIdx
open Cert.Spec

variable (V : (c : Dev nD) → (b : Ref sig .tc) → Buf (Elt Ideal) ((c : Thread nD τ).loc b))

/-! ## The layout forms of a row statistic -/

/-- A vector of `a` entries cast to a column `[a, 1]` reads, at `(p, 0)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along its unit axis to `[a, b]` reads, at `(p, q)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum over the lane coordinate of a `[2000, 128]` block at row `p` is the sum of the row's 128 entries. -/
theorem lane_sum (v : S2000x128.Idx → EReal) (h : S2000x128.Reduces [1] S2000) (p : Fin 2000) :
    ∑ k : Fin (S2000x128.size 1), v (h.lift (ix1 p) k) = ∑ κ : Fin 128, v (ix2 p κ) := by
  refine Finset.sum_congr rfl fun κ _ => congrArg v ?_
  funext a
  match a with
  | ⟨0, _⟩ => rfl
  | ⟨1, _⟩ => rfl

/-- The sum along the lanes of a `[2000, 128]` block, at row `p`: the sum of the row's 128 entries. -/
theorem rowSum_apply (v : FVec Ideal S2000x128 .f32) (h : S2000x128.Reduces [1] S2000) (hφ : FKind.Formats .f32)
    (hacc : (0x00000000#32 : BitVec (FTy.bits .f32)) = FKind.add.neutral .f32 hφ) (p : Fin 2000) :
    multiReduction (F := Ideal) .add [1] S2000 v 0x00000000#32 h hφ hacc (ix1 p) = ∑ κ : Fin 128, v (ix2 p κ) :=
  (Ideal.multiReduction_add_single v _ h hφ hacc (ix1 p)).trans (lane_sum v h p)

/-! ## The body's arithmetic at an entry -/

theorem plain : Cert.PlainDot.Plain dot_S2000x128_S128x128_S2000x128_1_0_0_1_n_n := ⟨rfl, rfl, rfl, rfl, rfl, rfl⟩
theorem contr_rank : dot_S2000x128_S128x128_S2000x128_1_0_0_1_n_n.contr.rank = 1 := rfl
theorem contr_size : dot_S2000x128_S128x128_S2000x128_1_0_0_1_n_n.contr.size ⟨0, by decide⟩ = 128 := rfl

/-- The merged linear layer on a block of rows: the product with the first half of the weight plus the product with
    the second half, plus the bias row. -/
def xmBlk (v0 v2 : Vec Ideal S2000x128 .f32) (v5 v8 : Vec Ideal S128x128 .f32) (v14 : Vec Ideal S1x128 .f32) :
    FVec Ideal S2000x128 .f32 :=
  addf
    (addf
      (matmul dot_S2000x128_S128x128_S2000x128_1_0_0_1_n_n none (truncf .bf16 v0 bitsLt_bf16_f32)
        (truncf .bf16 (shapeCast S128x128 v5 shapeCasts_S128x128_S128x128) bitsLt_bf16_f32) (constant S2000x128 .f32 0x00000000#32))
      (matmul dot_S2000x128_S128x128_S2000x128_1_0_0_1_n_n none
        (truncf .bf16 (shapeCast S2000x128 v2 shapeCasts_S2000x128_S2000x128) bitsLt_bf16_f32)
        (truncf .bf16 (shapeCast S128x128 v8 shapeCasts_S128x128_S128x128) bitsLt_bf16_f32) (constant S2000x128 .f32 0x00000000#32)))
    (broadcastTo S2000x128 (shapeCast S1x128 v14 shapeCasts_S1x128_S1x128) broadcasts_S1x128_S2000x128)

/-- Entry (p, q) of the merged linear layer's block is `mergeRow` of the two rows p. -/
theorem xmBlk_apply (v0 v2 : Vec Ideal S2000x128 .f32) (v5 v8 : Vec Ideal S128x128 .f32) (v14 : Vec Ideal S1x128 .f32)
    (p : Fin 2000) (q : Fin 128) :
    xmBlk v0 v2 v5 v8 v14 (ix2 p q)
      = mergeRow (fun κ => v0 (ix2 p κ)) (fun κ => v2 (ix2 p κ)) (mat v5) (mat v8) (row1 v14) q := by
  unfold xmBlk
  simp only [shapeCast_self]
  rw [addf_apply, addf_apply, broadcastTo_1b_ab_apply,
    Cert.PlainDot.matmul_zero_apply plain contr_rank contr_size,
    Cert.PlainDot.matmul_zero_apply plain contr_rank contr_size]
  rfl

/-- The mean of every row of a block, as a column. -/
def meanCol (x : FVec Ideal S2000x128 .f32) : FVec Ideal S2000x1 .f32 :=
  divf (shapeCast S2000x1 (multiReduction .add [1] S2000 x 0x00000000#32 reduces_S2000x128_S2000 (.inl rfl) rfl)
      shapeCasts_S2000_S2000x1) (broadcast S2000x1 (Scalar.ofBits .f32 0x43000000#32))

/-- The column of row means at row p is the mean of row p. -/
theorem meanCol_apply (x : FVec Ideal S2000x128 .f32) (p : Fin 2000) (u : Fin 1) :
    meanCol x (ix2 p u) = mean (fun κ => x (ix2 p κ)) := by
  unfold meanCol
  rw [divf_apply, shapeCast_a_a1_apply, broadcast_apply]
  exact congrArg (fun s => Ideal.div s (Ideal.ofBits .f32 0x43000000#32)) (rowSum_apply x _ _ _ p)

/-- A block less its row means, spread along the lanes. -/
def centred (x : FVec Ideal S2000x128 .f32) : FVec Ideal S2000x128 .f32 :=
  subf x (broadcastTo S2000x128 (meanCol x) broadcasts_S2000x1_S2000x128)

theorem centred_apply (x : FVec Ideal S2000x128 .f32) (p : Fin 2000) (q : Fin 128) :
    centred x (ix2 p q) = x (ix2 p q) - mean (fun κ => x (ix2 p κ)) := by
  unfold centred
  rw [subf_apply, broadcastTo_a1_ab_apply, meanCol_apply]

/-- The reciprocal root of every row's variance plus ε, as a column. -/
def rstdCol (x : FVec Ideal S2000x128 .f32) : FVec Ideal S2000x1 .f32 :=
  rsqrt (addf
    (divf (shapeCast S2000x1
        (multiReduction .add [1] S2000 (mulf (centred x) (centred x)) 0x00000000#32 reduces_S2000x128_S2000 (.inl rfl) rfl)
        shapeCasts_S2000_S2000x1) (broadcast S2000x1 (Scalar.ofBits .f32 0x43000000#32)))
    (broadcast S2000x1 (Scalar.ofBits .f32 0x3727C5AC#32)))

/-- The column of reciprocal roots at row p: the reciprocal root of the variance of row p plus ε. -/
theorem rstdCol_apply (x : FVec Ideal S2000x128 .f32) (p : Fin 2000) (u : Fin 1) :
    rstdCol x (ix2 p u) = Ideal.rsqrt (var (fun κ => x (ix2 p κ)) + Ideal.ofBits .f32 0x3727C5AC#32) := by
  unfold rstdCol
  show Ideal.rsqrt (addf (F := Ideal) (s := S2000x1) (φ := .f32) _ _ (ix2 p u)) = _
  rw [addf_apply, divf_apply, shapeCast_a_a1_apply, broadcast_apply, broadcast_apply]
  refine congrArg (fun s => Ideal.rsqrt (Ideal.div s (Ideal.ofBits .f32 0x43000000#32) + Ideal.ofBits .f32 0x3727C5AC#32)) ?_
  refine (rowSum_apply _ _ _ _ p).trans (Finset.sum_congr rfl fun κ _ => ?_)
  rw [mulf_apply, centred_apply]

/-- Layer normalisation of a block scaled by γ: ((x − μ) · rsqrt (σ² + ε)) · γ, the row statistics spread along the lanes. -/
def normBlk (x : FVec Ideal S2000x128 .f32) (v36 : Vec Ideal S1x128 .f32) : FVec Ideal S2000x128 .f32 :=
  mulf (mulf (centred x) (broadcastTo S2000x128 (rstdCol x) broadcasts_S2000x1_S2000x128))
    (broadcastTo S2000x128 (shapeCast S1x128 v36 shapeCasts_S1x128_S1x128) broadcasts_S1x128_S2000x128)

theorem normBlk_apply (x : FVec Ideal S2000x128 .f32) (v36 : Vec Ideal S1x128 .f32) (p : Fin 2000) (q : Fin 128) :
    normBlk x v36 (ix2 p q)
      = ((x (ix2 p q) - mean (fun κ => x (ix2 p κ)))
          * Ideal.rsqrt (var (fun κ => x (ix2 p κ)) + Ideal.ofBits .f32 0x3727C5AC#32)) * v36 (ix2 (0 : Fin 1) q) := by
  unfold normBlk
  simp only [shapeCast_self]
  rw [mulf_apply, mulf_apply, centred_apply, broadcastTo_a1_ab_apply, rstdCol_apply, broadcastTo_1b_ab_apply]

/-- The first stored value is the normalisation of the merged linear layer's block. -/
theorem pay2_eq (v0 v2 : Vec Ideal S2000x128 .f32) (v5 v8 : Vec Ideal S128x128 .f32) (v14 v36 : Vec Ideal S1x128 .f32) :
    k2_pay2 (F := Ideal) v0 v2 v5 v8 v14 v36 = normBlk (xmBlk v0 v2 v5 v8 v14) v36 := rfl

/-- The second stored value adds the shift row β and takes the positive part. -/
theorem pay1_apply (y : FVec Ideal S2000x128 .f32) (v40 : Vec Ideal S1x128 .f32) (p : Fin 2000) (q : Fin 128) :
    k2_pay1 (F := Ideal) y v40 (ix2 p q)
      = max (y (ix2 p q) + v40 (ix2 (0 : Fin 1) q)) (Ideal.ofBits .f32 0x00000000#32) := by
  unfold k2_pay1
  simp only [shapeCast_self]
  rw [maximumf_apply, addf_apply, broadcastTo_1b_ab_apply, broadcast_apply]
  rfl

/-- Entry (p, q) of what the body stores: `lnRelu` of the merged linear layer's row p. -/
theorem pay_xo_apply (v0 v2 : Vec Ideal S2000x128 .f32) (v5 v8 : Vec Ideal S128x128 .f32) (v14 v36 v40 : Vec Ideal S1x128 .f32)
    (p : Fin 2000) (q : Fin 128) :
    k2_pay1 (F := Ideal) (k2_pay2 v0 v2 v5 v8 v14 v36) v40 (ix2 p q)
      = lnRelu (mergeRow (fun κ => v0 (ix2 p κ)) (fun κ => v2 (ix2 p κ)) (mat v5) (mat v8) (row1 v14))
          (row1 v36) (row1 v40) q := by
  have hrow : (fun κ => xmBlk v0 v2 v5 v8 v14 (ix2 p κ))
      = mergeRow (fun κ => v0 (ix2 p κ)) (fun κ => v2 (ix2 p κ)) (mat v5) (mat v8) (row1 v14) :=
    funext fun κ => xmBlk_apply v0 v2 v5 v8 v14 p κ
  rw [pay1_apply, pay2_eq, normBlk_apply, hrow, xmBlk_apply]
  rfl

/-! ## The region's value: every point writes its block of rows of one whole-array function -/

theorem hz : (![0, 0] : Fin 2 → Nat) = fun _ => 0 := funext fun a => by fin_cases a <;> rfl

/-- What the output array ends holding: the merged linear layer on [X, msg], then layer normalisation and the
    positive part, row by row. -/
abbrev G (c : Dev nD) : S100000x128.Idx → EReal :=
  GLn (GMerge (V c main_arg0) (V c main_v48) (mat (V c main_v50)) (mat (V c main_v52)) (row1 (V c main_v53)))
    (row1 (V c main_v54)) (row1 (V c main_v55))

/-- The index maps over the grid: the three row-blocked windows sit at block (t, 0), the weight and bias windows at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The row of the array under row p of point t's block: row 2000·t + p. -/
def rowAt (t : Fin cfg2.N) (p : Fin 2000) : Fin 100000 :=
  ⟨t.val * 2000 + p.val, by have ht : t.val < 50 := t.isLt; have := p.isLt; omega⟩

/-- Entry (p, κ) of X's block at point t is entry (2000·t + p, κ) of X. -/
theorem emb_x (t : Fin cfg2.N) (p : Fin 2000) (κ : Fin 128) :
    ((cfg2.win 0).blk t).view.emb (ix2 p κ) = ix2 (rowAt t p) κ := by
  obtain ⟨e00, e01, e10, e11, e20, e21, e30, e31, e40, e41, e50, e51, e60, e61, e70, e71⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 128 + 1 * κ.val = κ.val; omega

/-- Entry (p, κ) of the message block at point t is entry (2000·t + p, κ) of the message array. -/
theorem emb_msg (t : Fin cfg2.N) (p : Fin 2000) (κ : Fin 128) :
    ((cfg2.win 1).blk t).view.emb (ix2 p κ) = ix2 (rowAt t p) κ := by
  obtain ⟨e00, e01, e10, e11, e20, e21, e30, e31, e40, e41, e50, e51, e60, e61, e70, e71⟩ := idx_facts t
  funext a; apply Fin.ext
  match a with
  | ⟨0, _⟩ => show win2_1.index t (0 : Fin 2) * 2000 + 1 * p.val = t.val * 2000 + p.val; omega
  | ⟨1, _⟩ => show win2_1.index t (1 : Fin 2) * 128 + 1 * κ.val = κ.val; omega

/-- Entry (p, q) of the output's block at point t sits at (2000·t + p, q) of the output array. -/
theorem emb_out (t : Fin cfg2.N) (p : Fin 2000) (q : Fin 128) :
    ((cfg2.win 7).blk t).view.emb (ix2 p q) = ix2 (rowAt t p) q := by
  obtain ⟨e00, e01, e10, e11, e20, e21, e30, e31, e40, e41, e50, e51, e60, e61, e70, e71⟩ := idx_facts t
  funext a; apply Fin.ext
  match a with
  | ⟨0, _⟩ => show win2_7.index t (0 : Fin 2) * 2000 + 1 * p.val = t.val * 2000 + p.val; omega
  | ⟨1, _⟩ => show win2_7.index t (1 : Fin 2) * 128 + 1 * q.val = q.val; omega

/-- The block of the weight's first half is the whole matrix at every point. -/
theorem emb_wx (t : Fin cfg2.N) (κ j : Fin 128) : ((cfg2.win 2).blk t).view.emb (ix2 κ j) = ix2 κ j := by
  obtain ⟨e00, e01, e10, e11, e20, e21, e30, e31, e40, e41, e50, e51, e60, e61, e70, e71⟩ := idx_facts t
  funext a; apply Fin.ext
  match a with
  | ⟨0, _⟩ => show win2_2.index t (0 : Fin 2) * 128 + 1 * κ.val = κ.val; omega
  | ⟨1, _⟩ => show win2_2.index t (1 : Fin 2) * 128 + 1 * j.val = j.val; omega

/-- The block of the weight's second half is the whole matrix at every point. -/
theorem emb_wm (t : Fin cfg2.N) (κ j : Fin 128) : ((cfg2.win 3).blk t).view.emb (ix2 κ j) = ix2 κ j := by
  obtain ⟨e00, e01, e10, e11, e20, e21, e30, e31, e40, e41, e50, e51, e60, e61, e70, e71⟩ := idx_facts t
  funext a; apply Fin.ext
  match a with
  | ⟨0, _⟩ => show win2_3.index t (0 : Fin 2) * 128 + 1 * κ.val = κ.val; omega
  | ⟨1, _⟩ => show win2_3.index t (1 : Fin 2) * 128 + 1 * j.val = j.val; omega

/-- The bias row's block is the whole row at every point. -/
theorem emb_b (t : Fin cfg2.N) (j : Fin 128) :
    ((cfg2.win 4).blk t).view.emb (ix2 (0 : Fin 1) j) = ix2 (0 : Fin 1) j := by
  obtain ⟨e00, e01, e10, e11, e20, e21, e30, e31, e40, e41, e50, e51, e60, e61, e70, e71⟩ := idx_facts t
  funext a; apply Fin.ext
  match a with
  | ⟨0, _⟩ => show win2_4.index t (0 : Fin 2) * 1 + 1 * (0 : Fin 1).val = (0 : Fin 1).val; simp [e40]
  | ⟨1, _⟩ => show win2_4.index t (1 : Fin 2) * 128 + 1 * j.val = j.val; omega

/-- The scale row's block is the whole row at every point. -/
theorem emb_g (t : Fin cfg2.N) (j : Fin 128) :
    ((cfg2.win 5).blk t).view.emb (ix2 (0 : Fin 1) j) = ix2 (0 : Fin 1) j := by
  obtain ⟨e00, e01, e10, e11, e20, e21, e30, e31, e40, e41, e50, e51, e60, e61, e70, e71⟩ := idx_facts t
  funext a; apply Fin.ext
  match a with
  | ⟨0, _⟩ => show win2_5.index t (0 : Fin 2) * 1 + 1 * (0 : Fin 1).val = (0 : Fin 1).val; simp [e50]
  | ⟨1, _⟩ => show win2_5.index t (1 : Fin 2) * 128 + 1 * j.val = j.val; omega

/-- The shift row's block is the whole row at every point. -/
theorem emb_s (t : Fin cfg2.N) (j : Fin 128) :
    ((cfg2.win 6).blk t).view.emb (ix2 (0 : Fin 1) j) = ix2 (0 : Fin 1) j := by
  obtain ⟨e00, e01, e10, e11, e20, e21, e30, e31, e40, e41, e50, e51, e60, e61, e70, e71⟩ := idx_facts t
  funext a; apply Fin.ext
  match a with
  | ⟨0, _⟩ => show win2_6.index t (0 : Fin 2) * 1 + 1 * (0 : Fin 1).val = (0 : Fin 1).val; simp [e60]
  | ⟨1, _⟩ => show win2_6.index t (1 : Fin 2) * 128 + 1 * j.val = j.val; omega

/-- WHAT POINT t WRITES BACK is block t of the whole-array function: rows 2000·t … 2000·t + 1999 of it. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k2_pay1 (k2_pay2 (iblk2 V c 0 t) (iblk2 V c 1 t) (iblk2 V c 2 t) (iblk2 V c 3 t) (iblk2 V c 4 t) (iblk2 V c 5 t))
        (iblk2 V c 6 t) (ix2 p q)
      = G V c (((cfg2.win 7).blk t).view.emb (ix2 p q))
  refine (pay_xo_apply (iblk2 V c 0 t) (iblk2 V c 1 t) (iblk2 V c 2 t) (iblk2 V c 3 t) (iblk2 V c 4 t) (iblk2 V c 5 t)
    (iblk2 V c 6 t) p q).trans ?_
  rw [emb_out t p q]
  show lnRelu (mergeRow (fun κ => iblk2 V c 0 t (ix2 p κ)) (fun κ => iblk2 V c 1 t (ix2 p κ)) (mat (iblk2 V c 2 t))
        (mat (iblk2 V c 3 t)) (row1 (iblk2 V c 4 t))) (row1 (iblk2 V c 5 t)) (row1 (iblk2 V c 6 t)) q
      = lnRelu (mergeRow (rowOf (V c main_arg0) (rowAt t p)) (rowOf (V c main_v48) (rowAt t p)) (mat (V c main_v50))
        (mat (V c main_v52)) (row1 (V c main_v53))) (row1 (V c main_v54)) (row1 (V c main_v55)) q
  have hx : (fun κ => iblk2 V c 0 t (ix2 p κ)) = rowOf (V c main_arg0) (rowAt t p) := funext fun κ => by
    show V c main_arg0 (((cfg2.win 0).blk t).view.emb (ix2 p κ)) = V c main_arg0 (ix2 (rowAt t p) κ)
    rw [emb_x t p κ]
  have hm : (fun κ => iblk2 V c 1 t (ix2 p κ)) = rowOf (V c main_v48) (rowAt t p) := funext fun κ => by
    show V c main_v48 (((cfg2.win 1).blk t).view.emb (ix2 p κ)) = V c main_v48 (ix2 (rowAt t p) κ)
    rw [emb_msg t p κ]
  have hwx : mat (iblk2 V c 2 t) = mat (V c main_v50) := funext fun κ => funext fun j => by
    show V c main_v50 (((cfg2.win 2).blk t).view.emb (ix2 κ j)) = V c main_v50 (ix2 κ j)
    rw [emb_wx t κ j]
  have hwm : mat (iblk2 V c 3 t) = mat (V c main_v52) := funext fun κ => funext fun j => by
    show V c main_v52 (((cfg2.win 3).blk t).view.emb (ix2 κ j)) = V c main_v52 (ix2 κ j)
    rw [emb_wm t κ j]
  have hb : row1 (iblk2 V c 4 t) = row1 (V c main_v53) := funext fun j => by
    show V c main_v53 (((cfg2.win 4).blk t).view.emb (ix2 (0 : Fin 1) j)) = V c main_v53 (ix2 (0 : Fin 1) j)
    rw [emb_b t j]
  have hg : row1 (iblk2 V c 5 t) = row1 (V c main_v54) := funext fun j => by
    show V c main_v54 (((cfg2.win 5).blk t).view.emb (ix2 (0 : Fin 1) j)) = V c main_v54 (ix2 (0 : Fin 1) j)
    rw [emb_g t j]
  have hs : row1 (iblk2 V c 6 t) = row1 (V c main_v55) := funext fun j => by
    show V c main_v55 (((cfg2.win 6).blk t).view.emb (ix2 (0 : Fin 1) j)) = V c main_v55 (ix2 (0 : Fin 1) j)
    rw [emb_s t j]
  rw [hx, hm, hwx, hwm, hb, hg, hs]

/-- An index of the output array is in point t's block iff each coordinate is in the block's range on its axis. -/
theorem mem_blk (t : Fin cfg2.N) (i : S100000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v56).slice (win2_7.rect t)).set ↔ _
  rw [View.set_slice_whole, Rect.mem_set_unit]
  exact Iff.rfl

/-- The 50 blocks of 2000 rows tile the 100000 rows: row r is in the block of point r / 2000. -/
theorem cover (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  let t : Fin cfg2.N := ⟨(i 0).val / 2000, by show (i 0).val / 2000 < 50; omega⟩
  have ht : t.val = (i 0).val / 2000 := rfl
  refine ⟨t, flush2_7 t, ?_⟩
  rw [mem_blk]
  obtain ⟨e00, e01, e10, e11, e20, e21, e30, e31, e40, e41, e50, e51, e60, e61, e70, e71⟩ := idx_facts t
  intro a
  match a with
  | ⟨0, _⟩ =>
    show win2_7.index t (0 : Fin 2) * 2000 ≤ (i 0).val ∧ (i 0).val < win2_7.index t (0 : Fin 2) * 2000 + 2000
    omega
  | ⟨1, _⟩ =>
    show win2_7.index t (1 : Fin 2) * 128 ≤ (i 1).val ∧ (i 1).val < win2_7.index t (1 : Fin 2) * 128 + 128
    omega

/-- Xo after the region: the merged linear layer on [X, msg], then layer normalisation and the positive part, row by row. -/
theorem final_xo (c : Dev nD) :
    (dat2 (F := Ideal) V c).arrAt 7 cfg2.N
      = GLn (GMerge (V c main_arg0) (V c main_v48) (mat (V c main_v50)) (mat (V c main_v52)) (row1 (V c main_v53)))
          (row1 (V c main_v54)) (row1 (V c main_v55)) :=
  (dat2 V c).arrAt_eq_of_cover 7 (G V c) (fun t _ => flushed_eq V c t) cover

end Cert.KernelIdeal.Reg2

end
-- ==== Proof.HostK.lean ====
import proofs.«123129_j8658654068867_1_alg».proof.Proof.Gen.KernelIdeal.Frame
import proofs.«123129_j8658654068867_1_alg».proof.Proof.Spec
import proofs.«123129_j8658654068867_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostK

open Cert.KernelIdeal Cert.KernelIdeal.Gen Idealize.ShloMosaic Idealize.ShloMosaic.TcCoe Idealize.ShloMosaic.ValueIdx
open Cert.Spec

variable (m : (ℓ : Loc nD τ sig) → Buf (Elt Ideal) ℓ) (ρ : Dev nD → PrngReg)

/-- The segment mean msg_e: rows of `xp` gathered at the indices `gi` (a negative index wrapped by +100000), added into the
    50000 segments `si` names, each segment's sum divided by max (its count, 1). -/
def segE (xp : S100000x128.Idx → EReal) (gi si : S1600000.Idx → BitVec 32) : S50000x128.Idx → EReal :=
  Host.divf
    (Host.scatterAdd scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 si)
      (Host.gather gather_S100000x128_S1600000x1_S1600000x128_1_0_n_n_0_1_1128 xp
        (broadcastInDim S1600000x1 ![0] bcast_S1600000_S1600000x1_0
          (select (cmpi .slt gi (broadcastInDim S1600000 ![] bcast_S_S1600000 (constantI S_ 32 0#32)))
            (addi gi (broadcastInDim S1600000 ![] bcast_S_S1600000 (constantI S_ 32 100000#32))) gi))))
    (broadcastInDim S50000x128 ![0, 1] bcast_S50000x1_S50000x128_0_1
      (maximumf
        (Host.scatterAdd scatter_S50000x1_S1600000x1_S1600000x1_1_0_0_1
          (broadcastInDim S50000x1 ![] bcast_S_S50000x1 (constant (F := Ideal) S_ .f32 0x00000000#32))
          (broadcastInDim S1600000x1 ![0] bcast_S1600000_S1600000x1_0 si)
          (broadcastInDim S1600000x1 ![] bcast_S_S1600000x1 (constant (F := Ideal) S_ .f32 0x3F800000#32)))
        (broadcastInDim S50000x1 ![] bcast_S_S50000x1 (constant (F := Ideal) S_ .f32 0x3F800000#32))))

/-- The segment mean msg_v: rows of `ym` gathered at the indices `gi` (a negative index wrapped by +50000), added into the
    100000 segments `si` names, each segment's sum divided by max (its count, 1). -/
def segV (ym : S50000x128.Idx → EReal) (gi si : S1600000.Idx → BitVec 32) : S100000x128.Idx → EReal :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 si)
      (Host.gather gather_S50000x128_S1600000x1_S1600000x128_1_0_n_n_0_1_1128 ym
        (broadcastInDim S1600000x1 ![0] bcast_S1600000_S1600000x1_0
          (select (cmpi .slt gi (broadcastInDim S1600000 ![] bcast_S_S1600000 (constantI S_ 32 0#32)))
            (addi gi (broadcastInDim S1600000 ![] bcast_S_S1600000 (constantI S_ 32 50000#32))) gi))))
    (broadcastInDim S100000x128 ![0, 1] bcast_S100000x1_S100000x128_0_1
      (maximumf
        (Host.scatterAdd scatter_S100000x1_S1600000x1_S1600000x1_1_0_0_1
          (broadcastInDim S100000x1 ![] bcast_S_S100000x1 (constant (F := Ideal) S_ .f32 0x00000000#32))
          (broadcastInDim S1600000x1 ![0] bcast_S1600000_S1600000x1_0 si)
          (broadcastInDim S1600000x1 ![] bcast_S_S1600000x1 (constant (F := Ideal) S_ .f32 0x3F800000#32)))
        (broadcastInDim S100000x1 ![] bcast_S_S100000x1 (constant (F := Ideal) S_ .f32 0x3F800000#32))))

/-! ## A buffer that a stretch of host operations never writes keeps its contents -/

/-- Decides, operation by operation, that none of a literal stretch writes the given reference. -/
local macro "no_write" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Region 0's entry: the first stretch transposes W_tv and views b_tv as one row -/

/-- The first stretch does not write argument 0. -/
theorem W1_arg0 (c : Dev nD) : W1 m ρ c (Proc.devRef .tc main_arg0) = m ((c.tc : Thread nD τ).loc main_arg0) :=
  StableHlo.after_of_forall_not_mem (b := Proc.devRef .tc main_arg0) _ _ (by no_write hostOps0)

theorem v1_x (c : Dev nD) : V1 m ρ c main_arg0 = m ((c.tc : Thread nD τ).loc main_arg0) := W1_arg0 m ρ c

/-- The transposed W_tv, read (input κ, output j), is W_tv read (j, κ). -/
theorem v1_w (c : Dev nD) : mat (V1 m ρ c main_v0) = matT (m ((c.tc : Thread nD τ).loc main_arg4)) := by
  funext κ j
  show StableHlo.after hostOps0 (W0 m ρ c) (Proc.devRef .tc main_v0) (ix2 κ j) = _
  after_results
  exact transpose_ix2_apply _ _ κ j

/-- b_tv viewed as a [1,128] array has b_tv as its one row. -/
theorem v1_b (c : Dev nD) : row1 (V1 m ρ c main_v1) = rowV (m ((c.tc : Thread nD τ).loc main_arg5)) := by
  funext j
  show StableHlo.after hostOps0 (W0 m ρ c) (Proc.devRef .tc main_v1) (ix2 (0 : Fin 1) j) = _
  after_results
  exact shapeCast_a_1a_apply _ _ (0 : Fin 1) j

/-! ## The arguments at region 0's exit: as launched -/

/-- A reference that region 0 reads through no window and that the first stretch does not write holds, at region 0's
    exit, its launch contents. -/
theorem W2_of_arg (c : Dev nD) (b : Ref sig .tc) (h2 : ∀ w, Pipeline.arrRef spec0 w ≠ b)
    (h0 : ∀ op ∈ (hostOps0 : List (HloOp τ sig (Elt Ideal))), Proc.devRef .tc b ∉ op.writes) :
    W2 m ρ c (Proc.devRef .tc b) = m ((c.tc : Thread nD τ).loc b) :=
  (W2_of_ne m ρ c b h2).trans (StableHlo.after_of_forall_not_mem (b := Proc.devRef .tc b) hostOps0 (W0 m ρ c) h0)

theorem W2_arg1 (c : Dev nD) : W2 m ρ c (Proc.devRef .tc main_arg1) = m ((c.tc : Thread nD τ).loc main_arg1) :=
  W2_of_arg m ρ c main_arg1 (by decide) (by no_write hostOps0)
theorem W2_arg2 (c : Dev nD) : W2 m ρ c (Proc.devRef .tc main_arg2) = m ((c.tc : Thread nD τ).loc main_arg2) :=
  W2_of_arg m ρ c main_arg2 (by decide) (by no_write hostOps0)
theorem W2_arg3 (c : Dev nD) : W2 m ρ c (Proc.devRef .tc main_arg3) = m ((c.tc : Thread nD τ).loc main_arg3) :=
  W2_of_arg m ρ c main_arg3 (by decide) (by no_write hostOps0)
theorem W2_arg6 (c : Dev nD) : W2 m ρ c (Proc.devRef .tc main_arg6) = m ((c.tc : Thread nD τ).loc main_arg6) :=
  W2_of_arg m ρ c main_arg6 (by decide) (by no_write hostOps0)
theorem W2_arg7 (c : Dev nD) : W2 m ρ c (Proc.devRef .tc main_arg7) = m ((c.tc : Thread nD τ).loc main_arg7) :=
  W2_of_arg m ρ c main_arg7 (by decide) (by no_write hostOps0)
theorem W2_arg8 (c : Dev nD) : W2 m ρ c (Proc.devRef .tc main_arg8) = m ((c.tc : Thread nD τ).loc main_arg8) :=
  W2_of_arg m ρ c main_arg8 (by decide) (by no_write hostOps0)
theorem W2_arg9 (c : Dev nD) : W2 m ρ c (Proc.devRef .tc main_arg9) = m ((c.tc : Thread nD τ).loc main_arg9) :=
  W2_of_arg m ρ c main_arg9 (by decide) (by no_write hostOps0)
theorem W2_arg10 (c : Dev nD) : W2 m ρ c (Proc.devRef .tc main_arg10) = m ((c.tc : Thread nD τ).loc main_arg10) :=
  W2_of_arg m ρ c main_arg10 (by decide) (by no_write hostOps0)
theorem W2_arg11 (c : Dev nD) : W2 m ρ c (Proc.devRef .tc main_arg11) = m ((c.tc : Thread nD τ).loc main_arg11) :=
  W2_of_arg m ρ c main_arg11 (by decide) (by no_write hostOps0)
theorem W2_arg12 (c : Dev nD) : W2 m ρ c (Proc.devRef .tc main_arg12) = m ((c.tc : Thread nD τ).loc main_arg12) :=
  W2_of_arg m ρ c main_arg12 (by decide) (by no_write hostOps0)
theorem W2_arg13 (c : Dev nD) : W2 m ρ c (Proc.devRef .tc main_arg13) = m ((c.tc : Thread nD τ).loc main_arg13) :=
  W2_of_arg m ρ c main_arg13 (by decide) (by no_write hostOps0)
theorem W2_arg14 (c : Dev nD) : W2 m ρ c (Proc.devRef .tc main_arg14) = m ((c.tc : Thread nD τ).loc main_arg14) :=
  W2_of_arg m ρ c main_arg14 (by decide) (by no_write hostOps0)
theorem W2_arg15 (c : Dev nD) : W2 m ρ c (Proc.devRef .tc main_arg15) = m ((c.tc : Thread nD τ).loc main_arg15) :=
  W2_of_arg m ρ c main_arg15 (by decide) (by no_write hostOps0)

/-- Argument 0 is region 0's first input window: the region leaves an input's array as it found it. -/
theorem W2_arg0 (c : Dev nD) : W2 m ρ c (Proc.devRef .tc main_arg0) = m ((c.tc : Thread nD τ).loc main_arg0) :=
  ((W2_arr m ρ c 0).trans (((dat0 (V1 m ρ) c).arrAt_in 0 rfl _).trans (A_eq0 (V1 m ρ) c 0))).trans (W1_arg0 m ρ c)

/-! ## Region 1's entry -/

theorem v3_y (c : Dev nD) : V3 m ρ c main_arg1 = m ((c.tc : Thread nD τ).loc main_arg1) :=
  (StableHlo.after_of_forall_not_mem (b := Proc.devRef .tc main_arg1) hostOps1 (W2 m ρ c) (by no_write hostOps1)).trans
    (W2_arg1 m ρ c)

/-- The left half of W_em, transposed: read (input κ, output j) it is W_em at (j, κ). -/
theorem v3_wy (c : Dev nD) : mat (V3 m ρ c main_v22) = matTL (m ((c.tc : Thread nD τ).loc main_arg8)) := by
  funext κ j
  show StableHlo.after hostOps1 (W2 m ρ c) (Proc.devRef .tc main_v22) (ix2 κ j) = _
  after_results
  rw [W2_arg8]
  exact (transpose_ix2_apply _ _ κ j).trans (slice2_axis1_apply 0 _ _ j κ (Fin.castAdd 128 κ) (Nat.zero_add _).symm)

/-- The right half of W_em, transposed: read (input κ, output j) it is W_em at (j, 128 + κ). -/
theorem v3_wg (c : Dev nD) : mat (V3 m ρ c main_v24) = matTR (m ((c.tc : Thread nD τ).loc main_arg8)) := by
  funext κ j
  show StableHlo.after hostOps1 (W2 m ρ c) (Proc.devRef .tc main_v24) (ix2 κ j) = _
  after_results
  rw [W2_arg8]
  exact (transpose_ix2_apply _ _ κ j).trans (slice2_axis1_apply 128 _ _ j κ (Fin.natAdd 128 κ) rfl)

theorem v3_wt (c : Dev nD) : mat (V3 m ρ c main_v25) = matT (m ((c.tc : Thread nD τ).loc main_arg6)) := by
  funext κ j
  show StableHlo.after hostOps1 (W2 m ρ c) (Proc.devRef .tc main_v25) (ix2 κ j) = _
  after_results
  rw [W2_arg6]
  exact transpose_ix2_apply _ _ κ j

theorem v3_bm (c : Dev nD) : row1 (V3 m ρ c main_v26) = rowV (m ((c.tc : Thread nD τ).loc main_arg9)) := by
  funext j
  show StableHlo.after hostOps1 (W2 m ρ c) (Proc.devRef .tc main_v26) (ix2 (0 : Fin 1) j) = _
  after_results
  rw [W2_arg9]
  exact shapeCast_a_1a_apply _ _ (0 : Fin 1) j

theorem v3_bt (c : Dev nD) : row1 (V3 m ρ c main_v27) = rowV (m ((c.tc : Thread nD τ).loc main_arg7)) := by
  funext j
  show StableHlo.after hostOps1 (W2 m ρ c) (Proc.devRef .tc main_v27) (ix2 (0 : Fin 1) j) = _
  after_results
  rw [W2_arg7]
  exact shapeCast_a_1a_apply _ _ (0 : Fin 1) j

theorem v3_g (c : Dev nD) : row1 (V3 m ρ c main_v28) = rowV (m ((c.tc : Thread nD τ).loc main_arg14)) := by
  funext j
  show StableHlo.after hostOps1 (W2 m ρ c) (Proc.devRef .tc main_v28) (ix2 (0 : Fin 1) j) = _
  after_results
  rw [W2_arg14]
  exact shapeCast_a_1a_apply _ _ (0 : Fin 1) j

theorem v3_be (c : Dev nD) : row1 (V3 m ρ c main_v29) = rowV (m ((c.tc : Thread nD τ).loc main_arg15)) := by
  funext j
  show StableHlo.after hostOps1 (W2 m ρ c) (Proc.devRef .tc main_v29) (ix2 (0 : Fin 1) j) = _
  after_results
  rw [W2_arg15]
  exact shapeCast_a_1a_apply _ _ (0 : Fin 1) j

/-- The segment mean handed to region 1: the stretch's gather, two scatter-adds, maximum and divide applied to region 0's
    output as region 0 left it, the index arrays as launched. -/
theorem v3_msg (c : Dev nD) : V3 m ρ c main_v20
    = segE (W2 m ρ c (Proc.devRef .tc main_v2)) (m ((c.tc : Thread nD τ).loc main_arg2)) (m ((c.tc : Thread nD τ).loc main_arg3)) := by
  show StableHlo.after hostOps1 (W2 m ρ c) (Proc.devRef .tc main_v20) = _
  after_results
  rw [W2_arg2, W2_arg3]
  rfl

/-! ## Region 2's entry -/

/-- A reference that region 1 reads through no window, that the second stretch does not write, and that held its launch
    contents at region 0's exit, still holds them at region 1's exit. -/
theorem W4_of_arg (c : Dev nD) (b : Ref sig .tc) (h4 : ∀ w, Pipeline.arrRef spec1 w ≠ b)
    (h1 : ∀ op ∈ (hostOps1 : List (HloOp τ sig (Elt Ideal))), Proc.devRef .tc b ∉ op.writes)
    (h : W2 m ρ c (Proc.devRef .tc b) = m ((c.tc : Thread nD τ).loc b)) :
    W4 m ρ c (Proc.devRef .tc b) = m ((c.tc : Thread nD τ).loc b) :=
  (W4_of_ne m ρ c b h4).trans
    ((StableHlo.after_of_forall_not_mem (b := Proc.devRef .tc b) hostOps1 (W2 m ρ c) h1).trans h)

theorem W4_arg0 (c : Dev nD) : W4 m ρ c (Proc.devRef .tc main_arg0) = m ((c.tc : Thread nD τ).loc main_arg0) :=
  W4_of_arg m ρ c main_arg0 (by decide) (by no_write hostOps1) (W2_arg0 m ρ c)
theorem W4_arg2 (c : Dev nD) : W4 m ρ c (Proc.devRef .tc main_arg2) = m ((c.tc : Thread nD τ).loc main_arg2) :=
  W4_of_arg m ρ c main_arg2 (by decide) (by no_write hostOps1) (W2_arg2 m ρ c)
theorem W4_arg3 (c : Dev nD) : W4 m ρ c (Proc.devRef .tc main_arg3) = m ((c.tc : Thread nD τ).loc main_arg3) :=
  W4_of_arg m ρ c main_arg3 (by decide) (by no_write hostOps1) (W2_arg3 m ρ c)
theorem W4_arg10 (c : Dev nD) : W4 m ρ c (Proc.devRef .tc main_arg10) = m ((c.tc : Thread nD τ).loc main_arg10) :=
  W4_of_arg m ρ c main_arg10 (by decide) (by no_write hostOps1) (W2_arg10 m ρ c)
theorem W4_arg11 (c : Dev nD) : W4 m ρ c (Proc.devRef .tc main_arg11) = m ((c.tc : Thread nD τ).loc main_arg11) :=
  W4_of_arg m ρ c main_arg11 (by decide) (by no_write hostOps1) (W2_arg11 m ρ c)
theorem W4_arg12 (c : Dev nD) : W4 m ρ c (Proc.devRef .tc main_arg12) = m ((c.tc : Thread nD τ).loc main_arg12) :=
  W4_of_arg m ρ c main_arg12 (by decide) (by no_write hostOps1) (W2_arg12 m ρ c)
theorem W4_arg13 (c : Dev nD) : W4 m ρ c (Proc.devRef .tc main_arg13) = m ((c.tc : Thread nD τ).loc main_arg13) :=
  W4_of_arg m ρ c main_arg13 (by decide) (by no_write hostOps1) (W2_arg13 m ρ c)

theorem v5_x (c : Dev nD) : V5 m ρ c main_arg0 = m ((c.tc : Thread nD τ).loc main_arg0) :=
  (StableHlo.after_of_forall_not_mem (b := Proc.devRef .tc main_arg0) hostOps2 (W4 m ρ c) (by no_write hostOps2)).trans
    (W4_arg0 m ρ c)

/-- The segment mean handed to region 2: the third stretch's gather, two scatter-adds, maximum and divide applied to
    region 1's first output as region 1 left it, the index arrays as launched (their roles exchanged). -/
theorem v5_msg (c : Dev nD) : V5 m ρ c main_v48
    = segV (W4 m ρ c (Proc.devRef .tc main_v30_0)) (m ((c.tc : Thread nD τ).loc main_arg3)) (m ((c.tc : Thread nD τ).loc main_arg2)) := by
  show StableHlo.after hostOps2 (W4 m ρ c) (Proc.devRef .tc main_v48) = _
  after_results
  rw [W4_arg2, W4_arg3]
  rfl

/-- The left half of W_vm, transposed: read (input κ, output j) it is W_vm at (j, κ). -/
theorem v5_wy (c : Dev nD) : mat (V5 m ρ c main_v50) = matTL (m ((c.tc : Thread nD τ).loc main_arg10)) := by
  funext κ j
  show StableHlo.after hostOps2 (W4 m ρ c) (Proc.devRef .tc main_v50) (ix2 κ j) = _
  after_results
  rw [W4_arg10]
  exact (transpose_ix2_apply _ _ κ j).trans (slice2_axis1_apply 0 _ _ j κ (Fin.castAdd 128 κ) (Nat.zero_add _).symm)

/-- The right half of W_vm, transposed: read (input κ, output j) it is W_vm at (j, 128 + κ). -/
theorem v5_wg (c : Dev nD) : mat (V5 m ρ c main_v52) = matTR (m ((c.tc : Thread nD τ).loc main_arg10)) := by
  funext κ j
  show StableHlo.after hostOps2 (W4 m ρ c) (Proc.devRef .tc main_v52) (ix2 κ j) = _
  after_results
  rw [W4_arg10]
  exact (transpose_ix2_apply _ _ κ j).trans (slice2_axis1_apply 128 _ _ j κ (Fin.natAdd 128 κ) rfl)

theorem v5_bm (c : Dev nD) : row1 (V5 m ρ c main_v53) = rowV (m ((c.tc : Thread nD τ).loc main_arg11)) := by
  funext j
  show StableHlo.after hostOps2 (W4 m ρ c) (Proc.devRef .tc main_v53) (ix2 (0 : Fin 1) j) = _
  after_results
  rw [W4_arg11]
  exact shapeCast_a_1a_apply _ _ (0 : Fin 1) j

theorem v5_g (c : Dev nD) : row1 (V5 m ρ c main_v54) = rowV (m ((c.tc : Thread nD τ).loc main_arg12)) := by
  funext j
  show StableHlo.after hostOps2 (W4 m ρ c) (Proc.devRef .tc main_v54) (ix2 (0 : Fin 1) j) = _
  after_results
  rw [W4_arg12]
  exact shapeCast_a_1a_apply _ _ (0 : Fin 1) j

theorem v5_be (c : Dev nD) : row1 (V5 m ρ c main_v55) = rowV (m ((c.tc : Thread nD τ).loc main_arg13)) := by
  funext j
  show StableHlo.after hostOps2 (W4 m ρ c) (Proc.devRef .tc main_v55) (ix2 (0 : Fin 1) j) = _
  after_results
  rw [W4_arg13]
  exact shapeCast_a_1a_apply _ _ (0 : Fin 1) j

/-! ## Region 2 leaves region 1's second output alone -/

/-- Region 1's second output is no window of region 2, and no operation of the third stretch writes it. -/
theorem w6_yo (c : Dev nD) : W6 m ρ c (Proc.devRef .tc main_v30_1) = W4 m ρ c (Proc.devRef .tc main_v30_1) :=
  (W6_of_ne m ρ c main_v30_1 (by decide)).trans
    (StableHlo.after_of_forall_not_mem (b := Proc.devRef .tc main_v30_1) hostOps2 (W4 m ρ c) (by no_write hostOps2))

end Cert.KernelIdeal.HostK

end
-- ==== Proof.RefValue.lean ====
import proofs.«123129_j8658654068867_1_alg».proof.Proof.Gen.ReferenceIdeal.Read
import proofs.«123129_j8658654068867_1_alg».proof.Proof.Spec
import proofs.«123129_j8658654068867_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx
open Cert.Spec

/-
  The reference's dense stages as the row-wise functions of the specification, on the extended reals.

  Every entry (r, q) of a stage depends on row r of the stage's row operands and on the whole weights: a linear layer
  reads its left operand at (r, κ) and its weight, stored (output, input), at (q, κ); a merge layer reads the
  concatenation at (r, k) for the 256 positions k, the first 128 in the left piece and the last 128 in the right piece at
  the column less 128, and the sum over 256 = 128 + 128 positions is the sum of the two half sums; a layer normalisation
  reads the row's mean and variance at (r, 0), each a sum from the zero word over the printed 128. The two segment means
  are the same host operations applied to a stage's value and are carried whole.
-/

/-- The segment mean msg_e: rows of `xp` gathered at the indices `gi` (a negative index wrapped by +100000), added into the
    50000 segments `si` names, each segment's sum divided by max (its count, 1). -/
def segE (xp : S100000x128.Idx → EReal) (gi si : S1600000.Idx → BitVec 32) : S50000x128.Idx → EReal :=
  Host.divf
    (Host.scatterAdd scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 si)
      (Host.gather gather_S100000x128_S1600000x1_S1600000x128_1_0_n_n_0_1_1128 xp
        (broadcastInDim S1600000x1 ![0] bcast_S1600000_S1600000x1_0
          (select (cmpi .slt gi (broadcastInDim S1600000 ![] bcast_S_S1600000 (constantI S_ 32 0#32)))
            (addi gi (broadcastInDim S1600000 ![] bcast_S_S1600000 (constantI S_ 32 100000#32))) gi))))
    (broadcastInDim S50000x128 ![0, 1] bcast_S50000x1_S50000x128_0_1
      (maximumf
        (Host.scatterAdd scatter_S50000x1_S1600000x1_S1600000x1_1_0_0_1
          (broadcastInDim S50000x1 ![] bcast_S_S50000x1 (constant (F := Ideal) S_ .f32 0x00000000#32))
          (broadcastInDim S1600000x1 ![0] bcast_S1600000_S1600000x1_0 si)
          (broadcastInDim S1600000x1 ![] bcast_S_S1600000x1 (constant (F := Ideal) S_ .f32 0x3F800000#32)))
        (broadcastInDim S50000x1 ![] bcast_S_S50000x1 (constant (F := Ideal) S_ .f32 0x3F800000#32))))

/-- The segment mean msg_v: rows of `ym` gathered at the indices `gi` (a negative index wrapped by +50000), added into the
    100000 segments `si` names, each segment's sum divided by max (its count, 1). -/
def segV (ym : S50000x128.Idx → EReal) (gi si : S1600000.Idx → BitVec 32) : S100000x128.Idx → EReal :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 si)
      (Host.gather gather_S50000x128_S1600000x1_S1600000x128_1_0_n_n_0_1_1128 ym
        (broadcastInDim S1600000x1 ![0] bcast_S1600000_S1600000x1_0
          (select (cmpi .slt gi (broadcastInDim S1600000 ![] bcast_S_S1600000 (constantI S_ 32 0#32)))
            (addi gi (broadcastInDim S1600000 ![] bcast_S_S1600000 (constantI S_ 32 50000#32))) gi))))
    (broadcastInDim S100000x128 ![0, 1] bcast_S100000x1_S100000x128_0_1
      (maximumf
        (Host.scatterAdd scatter_S100000x1_S1600000x1_S1600000x1_1_0_0_1
          (broadcastInDim S100000x1 ![] bcast_S_S100000x1 (constant (F := Ideal) S_ .f32 0x00000000#32))
          (broadcastInDim S1600000x1 ![0] bcast_S1600000_S1600000x1_0 si)
          (broadcastInDim S1600000x1 ![] bcast_S_S1600000x1 (constant (F := Ideal) S_ .f32 0x3F800000#32)))
        (broadcastInDim S100000x1 ![] bcast_S_S100000x1 (constant (F := Ideal) S_ .f32 0x3F800000#32))))

/-- Xp: the vertex linear layer, row by row (W_tv is stored (output, input): the transposed read). -/
theorem ref_xp (x0 : (⟨S100000x128, .f32⟩ : BufTy).Contents (Elt Ideal)) (x4 : (⟨S128x128, .f32⟩ : BufTy).Contents (Elt Ideal))
    (x5 : (⟨S128, .f32⟩ : BufTy).Contents (Elt Ideal)) :
    val_main_v4 (F := Ideal) x0 x4 x5 = GLin x0 (matT x4) (rowV x5) := by
  funext i
  obtain ⟨r, q, rfl⟩ : ∃ (r : Fin 100000) (q : Fin 128), i = ix2 r q := ⟨i 0, i 1, eq_ix2 i⟩
  rw [val_main_v4_apply, val_main_v1_apply, val_main_v3_apply, val_main_v2_apply]
  simp only [val_main_v0_apply]
  -- the left operand is read at (r, κ), the transposed weight at (q, κ), the bias at q
  have e1 : ∀ k : Fin 128, lidx_main_v1 (ix2 r q) k = ix2 r k := fun k => funext fun a => Fin.ext (by
    match a with | ⟨0, _⟩ => rfl | ⟨1, _⟩ => rfl)
  have e2 : ∀ k : Fin 128, idx_main_v0 (ridx_main_v1 (ix2 r q) k) = ix2 q k := fun k => funext fun a => Fin.ext (by
    match a with | ⟨0, _⟩ => rfl | ⟨1, _⟩ => rfl)
  have e3 : idx_main_v2 (idx_main_v3 (ix2 r q)) = ix1 q := funext fun a => Fin.ext (by
    match a with | ⟨0, _⟩ => rfl)
  simp only [e1, e2, e3]
  rfl

/-- msg_e is the segment mean of Xp. -/
theorem ref_msge (x0 : (⟨S100000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) :
    val_main_v22 (F := Ideal) x0 x2 x3 x4 x5 = segE (val_main_v4 (F := Ideal) x0 x4 x5) x2 x3 := rfl

/-- The concatenation [Y, G] of two [50000,128] arrays along the columns, read in its first 128 columns: Y. -/
theorem cat50_left (Y G : S50000x128.Idx → EReal) (r : Fin 50000) (κ : Fin 128) :
    concatenate S50000x256 1 [⟨S50000x128, Y⟩, ⟨S50000x128, G⟩] concatenates_S50000x128_S50000x128_S50000x256_d1
      (ix2 r (Fin.castAdd 128 κ)) = Y (ix2 r κ) :=
  concatenate_pair_apply_left 1 Y G concatenates_S50000x128_S50000x128_S50000x256_d1 _ rfl (ix2 r κ)
    (fun b => match b with | ⟨0, _⟩ => rfl | ⟨1, _⟩ => rfl)

/-- The same concatenation read in its last 128 columns: G, at the column less 128. -/
theorem cat50_right (Y G : S50000x128.Idx → EReal) (r : Fin 50000) (κ : Fin 128) :
    concatenate S50000x256 1 [⟨S50000x128, Y⟩, ⟨S50000x128, G⟩] concatenates_S50000x128_S50000x128_S50000x256_d1
      (ix2 r (Fin.natAdd 128 κ)) = G (ix2 r κ) :=
  concatenate_pair_apply_right 1 Y G concatenates_S50000x128_S50000x128_S50000x256_d1 _ rfl rfl (ix2 r κ)
    (fun b hb => match b, hb with | ⟨0, _⟩, _ => rfl | ⟨1, _⟩, hb => absurd rfl hb)
    (Nat.add_comm _ _)

/-- The merge layer on the concatenation [Y, msg_e]: the 256 contraction positions split into the first 128 (the columns
    of Y against the first half of W_em's columns) and the last 128 (the columns of msg_e against the second half). -/
theorem ref_merge_e (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x8 : (⟨S128x256, .f32⟩ : BufTy).Contents (Elt Ideal)) (x9 : (⟨S128, .f32⟩ : BufTy).Contents (Elt Ideal)) :
    val_main_v28 (F := Ideal) x0 x1 x2 x3 x4 x5 x8 x9
      = GMerge x1 (val_main_v22 (F := Ideal) x0 x2 x3 x4 x5) (matTL x8) (matTR x8) (rowV x9) := by
  funext i
  obtain ⟨r, q, rfl⟩ : ∃ (r : Fin 50000) (q : Fin 128), i = ix2 r q := ⟨i 0, i 1, eq_ix2 i⟩
  rw [val_main_v28_apply, val_main_v25_apply, val_main_v27_apply, val_main_v26_apply]
  simp only [val_main_v24_apply]
  unfold val_main_v23
  generalize val_main_v22 (F := Ideal) x0 x2 x3 x4 x5 = G
  -- the concatenation is read at (r, k), the transposed weight at (q, k), the bias at q
  have e1 : ∀ k : Fin 256, lidx_main_v25 (ix2 r q) k = ix2 r k := fun k => funext fun a => Fin.ext (by
    match a with | ⟨0, _⟩ => rfl | ⟨1, _⟩ => rfl)
  have e2 : ∀ k : Fin 256, idx_main_v24 (ridx_main_v25 (ix2 r q) k) = ix2 q k := fun k => funext fun a => Fin.ext (by
    match a with | ⟨0, _⟩ => rfl | ⟨1, _⟩ => rfl)
  have e3 : idx_main_v26 (idx_main_v27 (ix2 r q)) = ix1 q := funext fun a => Fin.ext (by
    match a with | ⟨0, _⟩ => rfl)
  simp only [e1, e2, e3]
  rw [sum_halves]
  simp only [cat50_left, cat50_right]
  rfl

/-- Ym: the merge layer on the concatenation [Y, msg_e] - its 256 contraction positions split into the two halves of
    W_em's columns - then the edge linear layer. -/
theorem ref_ym (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) :
    val_main_v33 (F := Ideal) x0 x1 x2 x3 x4 x5 x6 x7 x8 x9
      = GLin (GMerge x1 (val_main_v22 (F := Ideal) x0 x2 x3 x4 x5) (matTL x8) (matTR x8) (rowV x9)) (matT x6) (rowV x7) := by
  funext i
  obtain ⟨r, q, rfl⟩ : ∃ (r : Fin 50000) (q : Fin 128), i = ix2 r q := ⟨i 0, i 1, eq_ix2 i⟩
  rw [val_main_v33_apply, val_main_v30_apply, val_main_v32_apply, val_main_v31_apply, ref_merge_e]
  simp only [val_main_v29_apply]
  -- the merged row is read at (r, κ), the transposed weight at (q, κ), the bias at q
  have e1 : ∀ k : Fin 128, lidx_main_v30 (ix2 r q) k = ix2 r k := fun k => funext fun a => Fin.ext (by
    match a with | ⟨0, _⟩ => rfl | ⟨1, _⟩ => rfl)
  have e2 : ∀ k : Fin 128, idx_main_v29 (ridx_main_v30 (ix2 r q) k) = ix2 q k := fun k => funext fun a => Fin.ext (by
    match a with | ⟨0, _⟩ => rfl | ⟨1, _⟩ => rfl)
  have e3 : idx_main_v31 (idx_main_v32 (ix2 r q)) = ix1 q := funext fun a => Fin.ext (by
    match a with | ⟨0, _⟩ => rfl)
  simp only [e1, e2, e3]
  rfl

/-- msg_v is the segment mean of Ym. -/
theorem ref_msgv (x0 : (⟨S100000x128, .f32⟩ : BufTy).Contents (Elt Ideal)) (x1 : (⟨S50000x128, .f32⟩ : BufTy).Contents (Elt Ideal))
    (x2 x3 : (⟨S1600000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x256, .f32⟩ : BufTy).Contents (Elt Ideal)) (x9 : (⟨S128, .f32⟩ : BufTy).Contents (Elt Ideal)) :
    val_main_v51 (F := Ideal) x0 x1 x2 x3 x4 x5 x6 x7 x8 x9
      = segV (val_main_v33 (F := Ideal) x0 x1 x2 x3 x4 x5 x6 x7 x8 x9) x3 x2 := rfl

/-- The mean of row r of Ym, as Yo's layer normalisation computes it: the row's sum (from the zero word) over the printed 128. -/
theorem ref_mean_e (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (r : Fin 50000) :
    val_main_v86 (F := Ideal) x0 x1 x2 x3 x4 x5 x6 x7 x8 x9 (ix2 r (0 : Fin 1))
      = mean (rowOf (val_main_v33 (F := Ideal) x0 x1 x2 x3 x4 x5 x6 x7 x8 x9) r) := by
  rw [val_main_v86_apply, val_main_v84_apply, val_main_v83_apply, val_main_v85_apply, val_main_cst_16_apply,
    val_main_cst_15_apply]
  generalize val_main_v33 (F := Ideal) x0 x1 x2 x3 x4 x5 x6 x7 x8 x9 = Z
  have e1 : ∀ k : Fin 128, idx_main_v83 (idx_main_v84 (ix2 r (0 : Fin 1))) k = ix2 r k := fun k => funext fun a => Fin.ext (by
    match a with | ⟨0, _⟩ => rfl | ⟨1, _⟩ => rfl)
  simp only [e1, Ideal.ofBits_def, Ideal.hostDivf_def, Ideal.ofBits_zero_f32, zero_add]
  rfl

/-- The variance of row r of Ym, as Yo's layer normalisation computes it: the sum of the squared deviations from the
    mean over the printed 128. -/
theorem ref_var_e (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (r : Fin 50000) :
    val_main_v93 (F := Ideal) x0 x1 x2 x3 x4 x5 x6 x7 x8 x9 (ix2 r (0 : Fin 1))
      = var (rowOf (val_main_v33 (F := Ideal) x0 x1 x2 x3 x4 x5 x6 x7 x8 x9) r) := by
  rw [val_main_v93_apply, val_main_v91_apply, val_main_v90_apply, val_main_v92_apply, val_main_cst_18_apply,
    val_main_cst_17_apply]
  have e1 : ∀ k : Fin 128, idx_main_v90 (idx_main_v91 (ix2 r (0 : Fin 1))) k = ix2 r k := fun k => funext fun a => Fin.ext (by
    match a with | ⟨0, _⟩ => rfl | ⟨1, _⟩ => rfl)
  have e2 : ∀ k : Fin 128, idx_main_v87 (ix2 r k) = ix2 r (0 : Fin 1) := fun k => funext fun a => Fin.ext (by
    match a with | ⟨0, _⟩ => rfl | ⟨1, _⟩ => rfl)
  simp only [val_main_v89_apply, val_main_v88_apply, val_main_v87_apply, e1, e2, ref_mean_e]
  generalize val_main_v33 (F := Ideal) x0 x1 x2 x3 x4 x5 x6 x7 x8 x9 = Z
  simp only [Ideal.ofBits_def, Ideal.hostDivf_def, Ideal.ofBits_zero_f32, zero_add]
  rfl

/-- Yo: layer normalisation and the positive part of Ym. -/
theorem ref_yo (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal))
    (x14 : (⟨S128, .f32⟩ : BufTy).Contents (Elt Ideal)) (x15 : (⟨S128, .f32⟩ : BufTy).Contents (Elt Ideal)) :
    val_main_v107 (F := Ideal) x0 x1 x2 x3 x4 x5 x6 x7 x8 x9 x14 x15
      = GLn (val_main_v33 (F := Ideal) x0 x1 x2 x3 x4 x5 x6 x7 x8 x9) (rowV x14) (rowV x15) := by
  funext i
  obtain ⟨r, q, rfl⟩ : ∃ (r : Fin 50000) (q : Fin 128), i = ix2 r q := ⟨i 0, i 1, eq_ix2 i⟩
  -- the mean and the reciprocal root are read at (r, 0), the scale and the shift at q
  have e1 : idx_main_v94 (ix2 r q) = ix2 r (0 : Fin 1) := funext fun a => Fin.ext (by
    match a with | ⟨0, _⟩ => rfl | ⟨1, _⟩ => rfl)
  have e2 : idx_main_v99 (ix2 r q) = ix2 r (0 : Fin 1) := funext fun a => Fin.ext (by
    match a with | ⟨0, _⟩ => rfl | ⟨1, _⟩ => rfl)
  have e3 : idx_main_v101 (idx_main_v102 (ix2 r q)) = ix1 q := funext fun a => Fin.ext (by
    match a with | ⟨0, _⟩ => rfl)
  have e4 : idx_main_v104 (idx_main_v105 (ix2 r q)) = ix1 q := funext fun a => Fin.ext (by
    match a with | ⟨0, _⟩ => rfl)
  simp only [val_main_v107_apply, val_main_v106_apply, val_main_v103_apply, val_main_v100_apply, val_main_v95_apply,
    val_main_v94_apply, val_main_v99_apply, val_main_v98_apply, val_main_v97_apply, val_main_v96_apply,
    val_main_cst_19_apply, val_main_v102_apply, val_main_v101_apply, val_main_v105_apply, val_main_v104_apply,
    val_main_call1_v0_apply, val_main_call1_cst_apply, e1, e2, e3, e4, ref_mean_e, ref_var_e]
  generalize val_main_v33 (F := Ideal) x0 x1 x2 x3 x4 x5 x6 x7 x8 x9 = Z
  rfl

/-- The concatenation [X, G] of two [100000,128] arrays along the columns, read in its first 128 columns: X. -/
theorem cat100_left (X G : S100000x128.Idx → EReal) (r : Fin 100000) (κ : Fin 128) :
    concatenate S100000x256 1 [⟨S100000x128, X⟩, ⟨S100000x128, G⟩] concatenates_S100000x128_S100000x128_S100000x256_d1
      (ix2 r (Fin.castAdd 128 κ)) = X (ix2 r κ) :=
  concatenate_pair_apply_left 1 X G concatenates_S100000x128_S100000x128_S100000x256_d1 _ rfl (ix2 r κ)
    (fun b => match b with | ⟨0, _⟩ => rfl | ⟨1, _⟩ => rfl)

/-- The same concatenation read in its last 128 columns: G, at the column less 128. -/
theorem cat100_right (X G : S100000x128.Idx → EReal) (r : Fin 100000) (κ : Fin 128) :
    concatenate S100000x256 1 [⟨S100000x128, X⟩, ⟨S100000x128, G⟩] concatenates_S100000x128_S100000x128_S100000x256_d1
      (ix2 r (Fin.natAdd 128 κ)) = G (ix2 r κ) :=
  concatenate_pair_apply_right 1 X G concatenates_S100000x128_S100000x128_S100000x256_d1 _ rfl rfl (ix2 r κ)
    (fun b hb => match b, hb with | ⟨0, _⟩, _ => rfl | ⟨1, _⟩, hb => absurd rfl hb)
    (Nat.add_comm _ _)

/-- The merge layer on the concatenation [X, msg_v]: the 256 contraction positions split into the first 128 (the columns
    of X against the first half of W_vm's columns) and the last 128 (the columns of msg_v against the second half). -/
theorem ref_merge_v (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal))
    (x10 : (⟨S128x256, .f32⟩ : BufTy).Contents (Elt Ideal)) (x11 : (⟨S128, .f32⟩ : BufTy).Contents (Elt Ideal)) :
    val_main_v57 (F := Ideal) x0 x1 x2 x3 x4 x5 x6 x7 x8 x9 x10 x11
      = GMerge x0 (val_main_v51 (F := Ideal) x0 x1 x2 x3 x4 x5 x6 x7 x8 x9) (matTL x10) (matTR x10) (rowV x11) := by
  funext i
  obtain ⟨r, q, rfl⟩ : ∃ (r : Fin 100000) (q : Fin 128), i = ix2 r q := ⟨i 0, i 1, eq_ix2 i⟩
  rw [val_main_v57_apply, val_main_v54_apply, val_main_v56_apply, val_main_v55_apply]
  simp only [val_main_v53_apply]
  unfold val_main_v52
  generalize val_main_v51 (F := Ideal) x0 x1 x2 x3 x4 x5 x6 x7 x8 x9 = G
  -- the concatenation is read at (r, k), the transposed weight at (q, k), the bias at q
  have e1 : ∀ k : Fin 256, lidx_main_v54 (ix2 r q) k = ix2 r k := fun k => funext fun a => Fin.ext (by
    match a with | ⟨0, _⟩ => rfl | ⟨1, _⟩ => rfl)
  have e2 : ∀ k : Fin 256, idx_main_v53 (ridx_main_v54 (ix2 r q) k) = ix2 q k := fun k => funext fun a => Fin.ext (by
    match a with | ⟨0, _⟩ => rfl | ⟨1, _⟩ => rfl)
  have e3 : idx_main_v55 (idx_main_v56 (ix2 r q)) = ix1 q := funext fun a => Fin.ext (by
    match a with | ⟨0, _⟩ => rfl)
  simp only [e1, e2, e3]
  rw [sum_halves]
  simp only [cat100_left, cat100_right]
  rfl

/-- The mean of row r of the merged vertex rows, as Xo's layer normalisation computes it. -/
theorem ref_mean_v (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal))
    (x10 : (⟨S128x256, .f32⟩ : BufTy).Contents (Elt Ideal)) (x11 : (⟨S128, .f32⟩ : BufTy).Contents (Elt Ideal)) (r : Fin 100000) :
    val_main_v61 (F := Ideal) x0 x1 x2 x3 x4 x5 x6 x7 x8 x9 x10 x11 (ix2 r (0 : Fin 1))
      = mean (rowOf (val_main_v57 (F := Ideal) x0 x1 x2 x3 x4 x5 x6 x7 x8 x9 x10 x11) r) := by
  rw [val_main_v61_apply, val_main_v59_apply, val_main_v58_apply, val_main_v60_apply, val_main_cst_11_apply,
    val_main_cst_10_apply]
  generalize val_main_v57 (F := Ideal) x0 x1 x2 x3 x4 x5 x6 x7 x8 x9 x10 x11 = Z
  have e1 : ∀ k : Fin 128, idx_main_v58 (idx_main_v59 (ix2 r (0 : Fin 1))) k = ix2 r k := fun k => funext fun a => Fin.ext (by
    match a with | ⟨0, _⟩ => rfl | ⟨1, _⟩ => rfl)
  simp only [e1, Ideal.ofBits_def, Ideal.hostDivf_def, Ideal.ofBits_zero_f32, zero_add]
  rfl

/-- The variance of row r of the merged vertex rows, as Xo's layer normalisation computes it. -/
theorem ref_var_v (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal))
    (x10 : (⟨S128x256, .f32⟩ : BufTy).Contents (Elt Ideal)) (x11 : (⟨S128, .f32⟩ : BufTy).Contents (Elt Ideal)) (r : Fin 100000) :
    val_main_v68 (F := Ideal) x0 x1 x2 x3 x4 x5 x6 x7 x8 x9 x10 x11 (ix2 r (0 : Fin 1))
      = var (rowOf (val_main_v57 (F := Ideal) x0 x1 x2 x3 x4 x5 x6 x7 x8 x9 x10 x11) r) := by
  rw [val_main_v68_apply, val_main_v66_apply, val_main_v65_apply, val_main_v67_apply, val_main_cst_13_apply,
    val_main_cst_12_apply]
  have e1 : ∀ k : Fin 128, idx_main_v65 (idx_main_v66 (ix2 r (0 : Fin 1))) k = ix2 r k := fun k => funext fun a => Fin.ext (by
    match a with | ⟨0, _⟩ => rfl | ⟨1, _⟩ => rfl)
  have e2 : ∀ k : Fin 128, idx_main_v62 (ix2 r k) = ix2 r (0 : Fin 1) := fun k => funext fun a => Fin.ext (by
    match a with | ⟨0, _⟩ => rfl | ⟨1, _⟩ => rfl)
  simp only [val_main_v64_apply, val_main_v63_apply, val_main_v62_apply, e1, e2, ref_mean_v]
  generalize val_main_v57 (F := Ideal) x0 x1 x2 x3 x4 x5 x6 x7 x8 x9 x10 x11 = Z
  simp only [Ideal.ofBits_def, Ideal.hostDivf_def, Ideal.ofBits_zero_f32, zero_add]
  rfl

/-- Layer normalisation and the positive part of the merged vertex rows. -/
theorem ref_ln_v (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal))
    (x10 : (⟨S128x256, .f32⟩ : BufTy).Contents (Elt Ideal)) (x11 : (⟨S128, .f32⟩ : BufTy).Contents (Elt Ideal))
    (x12 : (⟨S128, .f32⟩ : BufTy).Contents (Elt Ideal)) (x13 : (⟨S128, .f32⟩ : BufTy).Contents (Elt Ideal)) :
    val_main_v82 (F := Ideal) x0 x1 x2 x3 x4 x5 x6 x7 x8 x9 x10 x11 x12 x13
      = GLn (val_main_v57 (F := Ideal) x0 x1 x2 x3 x4 x5 x6 x7 x8 x9 x10 x11) (rowV x12) (rowV x13) := by
  funext i
  obtain ⟨r, q, rfl⟩ : ∃ (r : Fin 100000) (q : Fin 128), i = ix2 r q := ⟨i 0, i 1, eq_ix2 i⟩
  -- the mean and the reciprocal root are read at (r, 0), the scale and the shift at q
  have e1 : idx_main_v69 (ix2 r q) = ix2 r (0 : Fin 1) := funext fun a => Fin.ext (by
    match a with | ⟨0, _⟩ => rfl | ⟨1, _⟩ => rfl)
  have e2 : idx_main_v74 (ix2 r q) = ix2 r (0 : Fin 1) := funext fun a => Fin.ext (by
    match a with | ⟨0, _⟩ => rfl | ⟨1, _⟩ => rfl)
  have e3 : idx_main_v76 (idx_main_v77 (ix2 r q)) = ix1 q := funext fun a => Fin.ext (by
    match a with | ⟨0, _⟩ => rfl)
  have e4 : idx_main_v79 (idx_main_v80 (ix2 r q)) = ix1 q := funext fun a => Fin.ext (by
    match a with | ⟨0, _⟩ => rfl)
  simp only [val_main_v82_apply, val_main_v81_apply, val_main_v78_apply, val_main_v75_apply, val_main_v70_apply,
    val_main_v69_apply, val_main_v74_apply, val_main_v73_apply, val_main_v72_apply, val_main_v71_apply,
    val_main_cst_14_apply, val_main_v77_apply, val_main_v76_apply, val_main_v80_apply, val_main_v79_apply,
    val_main_call0_v0_apply, val_main_call0_cst_apply, e1, e2, e3, e4, ref_mean_v, ref_var_v]
  generalize val_main_v57 (F := Ideal) x0 x1 x2 x3 x4 x5 x6 x7 x8 x9 x10 x11 = Z
  rfl

/-- Xo: the merge layer on [X, msg_v], then layer normalisation and the positive part. -/
theorem ref_xo (x0 : (⟨S100000x128, .f32⟩ : BufTy).Contents (Elt Ideal)) (x1 : (⟨S50000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal))
    (x10 : (⟨S128x256, .f32⟩ : BufTy).Contents (Elt Ideal)) (x11 : (⟨S128, .f32⟩ : BufTy).Contents (Elt Ideal))
    (x12 : (⟨S128, .f32⟩ : BufTy).Contents (Elt Ideal)) (x13 : (⟨S128, .f32⟩ : BufTy).Contents (Elt Ideal)) :
    val_main_v82 (F := Ideal) x0 x1 x2 x3 x4 x5 x6 x7 x8 x9 x10 x11 x12 x13
      = GLn (GMerge x0 (val_main_v51 (F := Ideal) x0 x1 x2 x3 x4 x5 x6 x7 x8 x9) (matTL x10) (matTR x10) (rowV x11)) (rowV x12) (rowV x13) := by
  rw [ref_ln_v, ref_merge_v]

end Cert.ReferenceIdeal.RefValue

end
-- ==== Proof.Bridge.lean ====
/-
  The two programs compute one function.

  Both programs are the same composition of six stages on the launch arrays:

    Xp    = the vertex linear layer on every row of X                       (weight W_tv, read transposed; bias b_tv)
    msg_e = the segment mean of the rows of Xp gathered at v_idx, by the segments e_idx names
    Ym    = the merge layer on every row of [Y, msg_e] (weight W_em, its 256 input columns split into two halves of 128;
            bias b_em), then the edge linear layer (W_te, b_te)
    Yo    = layer normalisation (g_e, be_e) and the positive part of every row of Ym
    msg_v = the segment mean of the rows of Ym gathered at e_idx, by the segments v_idx names
    Xo    = the merge layer on every row of [X, msg_v] (W_vm, b_vm), then layer normalisation (g_v, be_v) and the positive part

  The kernel program computes the three dense stages block by block in its three regions, the host stretches between
  them preparing the weights (slices, transposes, a bias viewed as one row) and computing the two segment means; what each
  region's output array ends holding is one whole-array function of what the region finds at entry, and what it finds at
  entry is what the stretch before it made of the previous stage. The reference computes the same stages as whole-array
  operations; its one structural difference, a single product over the 256 concatenated columns where the kernel adds two
  products over 128, is the splitting of a finite sum. The two segment means are the same host operations on both sides
  and are never opened: they are carried as one function of the stage's value and the two index arrays.
-/
import proofs.«123129_j8658654068867_1_alg».proof.Proof.KernelRun
import proofs.«123129_j8658654068867_1_alg».proof.Proof.Region0
import proofs.«123129_j8658654068867_1_alg».proof.Proof.Region1
import proofs.«123129_j8658654068867_1_alg».proof.Proof.Region2
import proofs.«123129_j8658654068867_1_alg».proof.Proof.HostK
import proofs.«123129_j8658654068867_1_alg».proof.Proof.RefValue

set_option maxRecDepth 16384

noncomputable section

namespace Cert.Bridge

open Idealize.ShloMosaic Idealize.ShloMosaic.TcCoe Idealize.ShloMosaic.ValueIdx Idealize.SL.Sem
open Cert.Spec

/-! ## The kernel program's stages as functions of its launch memory -/

section Kernel

open Cert.KernelIdeal Cert.KernelIdeal.Gen

variable (m : (ℓ : Loc nD τ sig) → Buf (Elt Ideal) ℓ) (ρ : Dev nD → PrngReg)

/-- Xp of the launch arrays. -/
def xp (c : Dev nD) : S100000x128.Idx → EReal :=
  GLin (m ((c.tc : Thread nD τ).loc main_arg0)) (matT (m ((c.tc : Thread nD τ).loc main_arg4)))
    (rowV (m ((c.tc : Thread nD τ).loc main_arg5)))

/-- Ym of the launch arrays. -/
def ym (c : Dev nD) : S50000x128.Idx → EReal :=
  GLin (GMerge (m ((c.tc : Thread nD τ).loc main_arg1))
      (HostK.segE (xp m c) (m ((c.tc : Thread nD τ).loc main_arg2)) (m ((c.tc : Thread nD τ).loc main_arg3)))
      (matTL (m ((c.tc : Thread nD τ).loc main_arg8))) (matTR (m ((c.tc : Thread nD τ).loc main_arg8)))
      (rowV (m ((c.tc : Thread nD τ).loc main_arg9))))
    (matT (m ((c.tc : Thread nD τ).loc main_arg6))) (rowV (m ((c.tc : Thread nD τ).loc main_arg7)))

/-- Yo of the launch arrays. -/
def yo (c : Dev nD) : S50000x128.Idx → EReal :=
  GLn (ym m c) (rowV (m ((c.tc : Thread nD τ).loc main_arg14))) (rowV (m ((c.tc : Thread nD τ).loc main_arg15)))

/-- Xo of the launch arrays. -/
def xo (c : Dev nD) : S100000x128.Idx → EReal :=
  GLn (GMerge (m ((c.tc : Thread nD τ).loc main_arg0))
      (HostK.segV (ym m c) (m ((c.tc : Thread nD τ).loc main_arg3)) (m ((c.tc : Thread nD τ).loc main_arg2)))
      (matTL (m ((c.tc : Thread nD τ).loc main_arg10))) (matTR (m ((c.tc : Thread nD τ).loc main_arg10)))
      (rowV (m ((c.tc : Thread nD τ).loc main_arg11))))
    (rowV (m ((c.tc : Thread nD τ).loc main_arg12))) (rowV (m ((c.tc : Thread nD τ).loc main_arg13)))

/-- Region 0 leaves Xp in its output array. -/
theorem w2_xp (c : Dev nD) : W2 m ρ c (Proc.devRef .tc main_v2) = xp m c := by
  refine (W2_arr m ρ c 3).trans ?_
  rw [Reg0.final_xp (V1 m ρ) c, HostK.v1_x m ρ c, HostK.v1_w m ρ c, HostK.v1_b m ρ c]
  rfl

/-- Region 1 leaves Ym in its first output array. -/
theorem w4_ym (c : Dev nD) : W4 m ρ c (Proc.devRef .tc main_v30_0) = ym m c := by
  refine (W4_arr m ρ c 9).trans ?_
  rw [Reg1.final_ym (V3 m ρ) c, HostK.v3_y m ρ c, HostK.v3_msg m ρ c, HostK.v3_wy m ρ c, HostK.v3_wg m ρ c,
    HostK.v3_bm m ρ c, HostK.v3_wt m ρ c, HostK.v3_bt m ρ c, w2_xp m ρ c]
  rfl

/-- Region 1 leaves Yo in its second output array. -/
theorem w4_yo (c : Dev nD) : W4 m ρ c (Proc.devRef .tc main_v30_1) = yo m c := by
  refine (W4_arr m ρ c 10).trans ?_
  rw [Reg1.final_yo (V3 m ρ) c, HostK.v3_y m ρ c, HostK.v3_msg m ρ c, HostK.v3_wy m ρ c, HostK.v3_wg m ρ c,
    HostK.v3_bm m ρ c, HostK.v3_wt m ρ c, HostK.v3_bt m ρ c, HostK.v3_g m ρ c, HostK.v3_be m ρ c, w2_xp m ρ c]
  rfl

/-- Region 2 leaves Xo in its output array. -/
theorem w6_xo (c : Dev nD) : W6 m ρ c (Proc.devRef .tc main_v56) = xo m c := by
  refine (W6_arr m ρ c 7).trans ?_
  rw [Reg2.final_xo (V5 m ρ) c, HostK.v5_x m ρ c, HostK.v5_msg m ρ c, HostK.v5_wy m ρ c, HostK.v5_wg m ρ c,
    HostK.v5_bm m ρ c, HostK.v5_g m ρ c, HostK.v5_be m ρ c, w4_ym m ρ c]
  rfl

/-- Yo is still in region 1's second output array after the last region. -/
theorem w6_yo (c : Dev nD) : W6 m ρ c (Proc.devRef .tc main_v30_1) = yo m c :=
  (HostK.w6_yo m ρ c).trans (w4_yo m ρ c)

end Kernel

/-! ## The two programs' segment means are one function -/

theorem segE_eq (xp : Cert.KernelIdeal.S100000x128.Idx → EReal) (gi si : Cert.KernelIdeal.S1600000.Idx → BitVec 32) :
    Cert.ReferenceIdeal.RefValue.segE xp gi si = Cert.KernelIdeal.HostK.segE xp gi si := rfl

theorem segV_eq (ym : Cert.KernelIdeal.S50000x128.Idx → EReal) (gi si : Cert.KernelIdeal.S1600000.Idx → BitVec 32) :
    Cert.ReferenceIdeal.RefValue.segV ym gi si = Cert.KernelIdeal.HostK.segV ym gi si := rfl

/-! ## The reference's results are the kernel program's stages of the same launch arrays -/

section Reference

open Cert.ReferenceIdeal.RefValue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's first result, from a memory agreeing with the kernel program's on the arguments, is Xo. -/
theorem ref_res_xo (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Value.res_main_v82 m' c = xo m c := by
  rw [Cert.ReferenceIdeal.Read.val_main_v82_eq, h0, h1, h2, h3, h4, h5, h6, h7, h8, h9, h10, h11, h12, h13,
    ref_xo, ref_msgv, ref_ym, ref_msge, ref_xp, segE_eq, segV_eq]
  rfl

/-- The reference's second result, from a memory agreeing with the kernel program's on the arguments, is Yo. -/
theorem ref_res_yo (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v107 m' c = yo m c := by
  rw [Cert.ReferenceIdeal.Read.val_main_v107_eq, h0, h1, h2, h3, h4, h5, h6, h7, h8, h9, h14, h15,
    ref_yo, ref_ym, ref_msge, ref_xp, segE_eq]
  rfl

end Reference

end Cert.Bridge

end
-- ==== Proof.lean ====
/-
  The kernel program (three kernel regions among host operations) and its reference compute the same two arrays,
  Xo and Yo, as extended reals, from memories that agree on the sixteen arguments.

  Frames. The word-level kernel program and its idealization terminate without fault and leave their arguments as
  launched: the generated frame certificates. The reference has no kernel; its frame is its run with the results dropped.

  Preserves. The idealization rewrote no operation, so there is nothing to state.

  Algebraic. The kernel program's run ends with Xo in the last region's output array and Yo in the second region's second
  output array, each named as what the frame's fold through @main leaves there; those contents are the six-stage
  composition of the launch arrays (Proof/Bridge.lean: each region's output is one whole-array function of what the region
  finds at entry, Proof/Region0.lean to Region2.lean; the host stretches between them prepare the weights and the two segment means,
  Proof/HostK.lean). The reference's run ends with the same composition of its own arguments (Proof/RefValue.lean over the
  generated read of its operations), and the arguments agree.
-/
import proofs.«123129_j8658654068867_1_alg».proof.Defs
import proofs.«123129_j8658654068867_1_alg».proof.Proof.Gen.Kernel
import proofs.«123129_j8658654068867_1_alg».proof.Proof.Gen.Kernel.Skeleton
import proofs.«123129_j8658654068867_1_alg».proof.Proof.Gen.Kernel.Launch
import proofs.«123129_j8658654068867_1_alg».proof.Proof.Gen.Kernel.Points
import proofs.«123129_j8658654068867_1_alg».proof.Proof.Gen.Kernel.Frame
import proofs.«123129_j8658654068867_1_alg».proof.Proof.Gen.KernelIdeal
import proofs.«123129_j8658654068867_1_alg».proof.Proof.Gen.KernelIdeal.Skeleton
import proofs.«123129_j8658654068867_1_alg».proof.Proof.Gen.KernelIdeal.Launch
import proofs.«123129_j8658654068867_1_alg».proof.Proof.Gen.KernelIdeal.Points
import proofs.«123129_j8658654068867_1_alg».proof.Proof.Gen.KernelIdeal.Frame
import proofs.«123129_j8658654068867_1_alg».proof.Proof.Gen.ReferenceIdeal
import proofs.«123129_j8658654068867_1_alg».proof.Proof.Gen.ReferenceIdeal.Run
import proofs.«123129_j8658654068867_1_alg».proof.Proof.Gen.ReferenceIdeal.Read
import proofs.«123129_j8658654068867_1_alg».proof.Proof.Gen.Pre_finite_inputs
import proofs.«123129_j8658654068867_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the two results dropped
    intro m ρ _
    exact (θ_run Cert.ReferenceIdeal.defs _ _).mono (fun _ h c => (h c).2.2) (Cert.ReferenceIdeal.Value.run (F := Ideal) m ρ)
  · -- both runs end with Xo and Yo of the kernel program's launch arrays
    intro m ρ m' ρ' _ hagree
    refine ⟨fun c => Cert.Bridge.xo m c, fun c => Cert.Bridge.yo m c, ?_, ?_⟩
    · exact (θ_run Cert.KernelIdeal.defs _ _).mono
        (fun r h c => ⟨(h c).1.trans (Cert.Bridge.w6_xo m ρ c), (h c).2.1.trans (Cert.Bridge.w6_yo m ρ c), (h c).2.2⟩)
        (Cert.KernelIdeal.Run.run (F := Ideal) m ρ)
    · refine (θ_run Cert.ReferenceIdeal.defs _ _).mono (fun r h c => ?_) (Cert.ReferenceIdeal.Value.run (F := Ideal) m' ρ')
      obtain ⟨h0, h1, h2, h3, h4, h5, h6, h7, h8, h9, h10, h11, h12, h13, h14, h15⟩ := hagree c
      exact ⟨(h c).1.trans (Cert.Bridge.ref_res_xo m m' c h0 h1 h2 h3 h4 h5 h6 h7 h8 h9 h10 h11 h12 h13),
        (h c).2.1.trans (Cert.Bridge.ref_res_yo m m' c h0 h1 h2 h3 h4 h5 h6 h7 h8 h9 h14 h15), (h c).2.2⟩⟩

end Cert.Proof

end
